-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x200x128 : Shape := ⟨3, ![1024, 200, 128]⟩
abbrev S1024x128 : Shape := ⟨2, ![1024, 128]⟩
abbrev S1024x200 : Shape := ⟨2, ![1024, 200]⟩
abbrev S128x128 : Shape := ⟨2, ![128, 128]⟩
abbrev S1x128 : Shape := ⟨2, ![1, 128]⟩
abbrev S1 : Shape := ⟨1, ![1]⟩
abbrev S_ : Shape := ⟨0, ![]⟩

class Facts : Prop where
  bcast_S_S1024x200x128 : S_.BroadcastsInDim S1024x200x128 (![] : Fin 0 → Fin S1024x200x128.rank)
  reducesTo_S1024x200x128_S_d0_1_2 : S1024x200x128.ReducesTo [0, 1, 2] S_
  h_S_ : 0 < S_.numel
  bcast_S_S1024x128 : S_.BroadcastsInDim S1024x128 (![] : Fin 0 → Fin S1024x128.rank)
  reducesTo_S1024x128_S_d0_1 : S1024x128.ReducesTo [0, 1] S_
  bcast_S_S128x128 : S_.BroadcastsInDim S128x128 (![] : Fin 0 → Fin S128x128.rank)
  reducesTo_S128x128_S_d0_1 : S128x128.ReducesTo [0, 1] S_
  bcast_S_S1x128 : S_.BroadcastsInDim S1x128 (![] : Fin 0 → Fin S1x128.rank)
  reducesTo_S1x128_S_d0_1 : S1x128.ReducesTo [0, 1] S_
  bcast_S_S1 : S_.BroadcastsInDim S1 (![] : Fin 0 → Fin S1.rank)
  reducesTo_S1_S_d0 : S1.ReducesTo [0] S_
  bcast_S_S1024x200 : S_.BroadcastsInDim S1024x200 (![] : Fin 0 → Fin S1024x200.rank)
  reducesTo_S1024x200_S_d0_1 : S1024x200.ReducesTo [0, 1] S_

variable [Facts]

def fn_part2 {F : FTy → Type} [FloatOps F] (main_v28 : IVec S_ 1) (main_v33 : IVec S1024x200 1) : IVec S_ 1 :=
  let main_c_12 : IVec S_ 1 := constantI S_ 1 1#1
  let main_v34 : IVec S_ 1 := (fun x v => Host.reduce IntOp.andi x v reducesTo_S1024x200_S_d0_1 h_S_) main_v33 main_c_12
  let main_v35 : IVec S_ 1 := andi main_v28 main_v34
  main_v35

def fn_part1 {F : FTy → Type} [FloatOps F] (main_arg2 : IVec S1024x200 32) (main_arg6 : FVec F S1x128 .f32) (main_arg7 : FVec F S1 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S1x128 .f32 := Host.absf main_arg6
  let main_cst_6 : FVec F S_ .f32 := constant S_ .f32 0x7F800000#32
  let main_v20 : FVec F S1x128 .f32 := broadcastInDim S1x128 ![] bcast_S_S1x128 main_cst_6
  let main_v21 : IVec S1x128 1 := cmpf .olt main_v19 main_v20
  let main_c_7 : IVec S_ 1 := constantI S_ 1 1#1
  let main_v22 : IVec S_ 1 := (fun x v => Host.reduce IntOp.andi x v reducesTo_S1x128_S_d0_1 h_S_) main_v21 main_c_7
  let main_v23 : IVec S_ 1 := andi main_v18 main_v22
  let main_v24 : FVec F S1 .f32 := Host.absf main_arg7
  let main_cst_8 : FVec F S_ .f32 := constant S_ .f32 0x7F800000#32
  let main_v25 : FVec F S1 .f32 := broadcastInDim S1 ![] bcast_S_S1 main_cst_8
  let main_v26 : IVec S1 1 := cmpf .olt main_v24 main_v25
  let main_c_9 : IVec S_ 1 := constantI S_ 1 1#1
  let main_v27 : IVec S_ 1 := (fun x v => Host.reduce IntOp.andi x v reducesTo_S1_S_d0 h_S_) main_v26 main_c_9
  let main_v28 : IVec S_ 1 := andi main_v23 main_v27
  let main_c_10 : IVec S_ 32 := constantI S_ 32 0#32
  let main_v29 : IVec S1024x200 32 := broadcastInDim S1024x200 ![] bcast_S_S1024x200 main_c_10
  let main_v30 : IVec S1024x200 1 := cmpi .sge main_arg2 main_v29
  let main_c_11 : IVec S_ 32 := constantI S_ 32 100000#32
  let main_v31 : IVec S1024x200 32 := broadcastInDim S1024x200 ![] bcast_S_S1024x200 main_c_11
  let main_v32 : IVec S1024x200 1 := cmpi .slt main_arg2 main_v31
  let main_v33 : IVec S1024x200 1 := andi main_v30 main_v32
  fn_part2 (F := F) main_v28 main_v33

def fn {F : FTy → Type} [FloatOps F] (main_arg0 : FVec F S1024x200x128 .f32) (main_arg1 : FVec F S1024x128 .f32) (main_arg2 : IVec S1024x200 32) (main_arg3 : IVec S1024x200 1) (main_arg4 : FVec F S128x128 .f32) (main_arg5 : FVec F S128x128 .f32) (main_arg6 : FVec F S1x128 .f32) (main_arg7 : FVec F S1 .f32) : IVec S_ 1 :=
  let main_v0 : FVec F S1024x200x128 .f32 := Host.absf main_arg0
  let main_cst : FVec F S_ .f32 := constant S_ .f32 0x7F800000#32
  let main_v1 : FVec F S1024x200x128 .f32 := broadcastInDim S1024x200x128 ![] bcast_S_S1024x200x128 main_cst
  let main_v2 : IVec S1024x200x128 1 := cmpf .olt main_v0 main_v1
  let main_c : IVec S_ 1 := constantI S_ 1 1#1
  let main_v3 : IVec S_ 1 := (fun x v => Host.reduce IntOp.andi x v reducesTo_S1024x200x128_S_d0_1_2 h_S_) main_v2 main_c
  let main_v4 : FVec F S1024x128 .f32 := Host.absf main_arg1
  let main_cst_0 : FVec F S_ .f32 := constant S_ .f32 0x7F800000#32
  let main_v5 : FVec F S1024x128 .f32 := broadcastInDim S1024x128 ![] bcast_S_S1024x128 main_cst_0
  let main_v6 : IVec S1024x128 1 := cmpf .olt main_v4 main_v5
  let main_c_1 : IVec S_ 1 := constantI S_ 1 1#1
  let main_v7 : IVec S_ 1 := (fun x v => Host.reduce IntOp.andi x v reducesTo_S1024x128_S_d0_1 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg2 main_arg6 main_arg7 main_v13 main_v16
-- ==== Kernel.lean ====
abbrev S1024x200x128 : Shape := ⟨3, ![1024, 200, 128]⟩
abbrev S1024x128 : Shape := ⟨2, ![1024, 128]⟩
abbrev S1024x200 : Shape := ⟨2, ![1024, 200]⟩
abbrev S128x128 : Shape := ⟨2, ![128, 128]⟩
abbrev S1x128 : Shape := ⟨2, ![1, 128]⟩
abbrev S1 : Shape := ⟨1, ![1]⟩
abbrev S64x200x128 : Shape := ⟨3, ![64, 200, 128]⟩
abbrev S64x128 : Shape := ⟨2, ![64, 128]⟩
abbrev S64x200 : Shape := ⟨2, ![64, 200]⟩
abbrev S12800x128 : Shape := ⟨2, ![12800, 128]⟩
abbrev S64x1x128 : Shape := ⟨3, ![64, 1, 128]⟩
abbrev S128 : Shape := ⟨1, ![128]⟩
abbrev S1x1x128 : Shape := ⟨3, ![1, 1, 128]⟩
abbrev S1x1 : Shape := ⟨2, ![1, 1]⟩
abbrev S64 : Shape := ⟨1, ![64]⟩
abbrev S64x1 : Shape := ⟨2, ![64, 1]⟩
abbrev S1024 : Shape := ⟨1, ![1024]⟩
abbrev S1024x1 : Shape := ⟨2, ![1024, 1]⟩
abbrev S_ : Shape := ⟨0, ![]⟩
abbrev S204800 : Shape := ⟨1, ![204800]⟩
abbrev S102400000 : Shape := ⟨1, ![102400000]⟩
abbrev S204800x1 : Shape := ⟨2, ![204800, 1]⟩
abbrev S1024x100000 : Shape := ⟨2, ![1024, 100000]⟩

abbrev nBuf : Space → Nat
  | .hbm => 33
  | .vmem => 12
  | .smem => 0
  | _ => 0

abbrev bufTy : (tb : Table) → Fin (tcTables nBuf tb) → BufTy
  | .hbm, ⟨0, _⟩ => ⟨S1024x200x128, .f32⟩
  | .hbm, ⟨1, _⟩ => ⟨S1024x128, .f32⟩
  | .hbm, ⟨2, _⟩ => ⟨S1024x200, .i32⟩
  | .hbm, ⟨3, _⟩ => ⟨S1024x200, .i1⟩
  | .hbm, ⟨4, _⟩ => ⟨S128x128, .f32⟩
  | .hbm, ⟨5, _⟩ => ⟨S128x128, .f32⟩
  | .hbm, ⟨6, _⟩ => ⟨S1x128, .f32⟩
  | .hbm, ⟨7, _⟩ => ⟨S1, .f32⟩
  | .hbm, ⟨8, _⟩ => ⟨S1024x200, .f32⟩
  | .hbm, ⟨9, _⟩ => ⟨S128x128, .f32⟩
  | .hbm, ⟨10, _⟩ => ⟨S128x128, .f32⟩
  | .hbm, ⟨11, _⟩ => ⟨S1024x200, .f32⟩
  | .hbm, ⟨12, _⟩ => ⟨S1024, .i32⟩
  | .hbm, ⟨13, _⟩ => ⟨S1024x1, .i32⟩
  | .hbm, ⟨14, _⟩ => ⟨S_, .i32⟩
  | .hbm, ⟨15, _⟩ => ⟨S1024x1, .i32⟩
  | .hbm, ⟨16, _⟩ => ⟨S1024x1, .i32⟩
  | .hbm, ⟨17, _⟩ => ⟨S1024x200, .i32⟩
  | .hbm, ⟨18, _⟩ => ⟨S1024x200, .i32⟩
  | .hbm, ⟨19, _⟩ => ⟨S204800, .i32⟩
  | .hbm, ⟨20, _⟩ => ⟨S204800, .f32⟩
  | .hbm, ⟨21, _⟩ => ⟨S_, .f32⟩
  | .hbm, ⟨22, _⟩ => ⟨S102400000, .f32⟩
  | .hbm, ⟨23, _⟩ => ⟨S_, .i32⟩
  | .hbm, ⟨24, _⟩ => ⟨S204800, .i32⟩
  | .hbm, ⟨25, _⟩ => ⟨S204800, .i1⟩
  | .hbm, ⟨26, _⟩ => ⟨S_, .i32⟩
  | .hbm, ⟨27, _⟩ => ⟨S204800, .i32⟩
  | .hbm, ⟨28, _⟩ => ⟨S204800, .i32⟩
  | .hbm, ⟨29, _⟩ => ⟨S204800, .i32⟩
  | .hbm, ⟨30, _⟩ => ⟨S204800x1, .i32⟩
  | .hbm, ⟨31, _⟩ => ⟨S102400000, .f32⟩
  | .hbm, ⟨32, _⟩ => ⟨S1024x100000, .f32⟩
  | .local _ .vmem, ⟨0, _⟩ => ⟨S64x200x128, .f32⟩
  | .local _ .vmem, ⟨1, _⟩ => ⟨S64x200x128, .f32⟩
  | .local _ .vmem, ⟨2, _⟩ => ⟨S64x128, .f32⟩
  | .local _ .vmem, ⟨3, _⟩ => ⟨S64x128, .f32⟩
  | .local _ .vmem, ⟨4, _⟩ => ⟨S64x200, .f32⟩
  | .local _ .vmem, ⟨5, _⟩ => ⟨S64x200, .f32⟩
  | .local _ .vmem, ⟨6, _⟩ => ⟨S128x128, .f32⟩
  | .local _ .vmem, ⟨7, _⟩ => ⟨S128x128, .f32⟩
  | .local _ .vmem, ⟨8, _⟩ => ⟨S1x128, .f32⟩
  | .local _ .vmem, ⟨9, _⟩ => ⟨S1, .f32⟩
  | .local _ .vmem, ⟨10, _⟩ => ⟨S64x200, .f32⟩
  | .local _ .vmem, ⟨11, _⟩ => ⟨S64x200, .f32⟩
  | _, _ => ⟨S1024x200x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_c : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst : Ref sig .tc := ⟨.hbm, 21, rfl⟩
abbrev main_v12 : Ref sig .tc := ⟨.hbm, 22, rfl⟩
abbrev main_c_0 : Ref sig .tc := ⟨.hbm, 23, rfl⟩
abbrev main_v13 : Ref sig .tc := ⟨.hbm, 24, rfl⟩
abbrev main_v14 : Ref sig .tc := ⟨.hbm, 25, rfl⟩
abbrev main_c_1 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x200x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x200 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S64x200 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  transposes_S128x128_S128x128_1_0 : S128x128.Transposes [1, 0] S128x128
  inb_S64x200x128_S64x200x128_0_0_0 : ∀ a, (![0, 0, 0] : Fin 3 → Nat) a + S64x200x128.size a ≤ S64x200x128.size a
  h_S64x200x128 : 0 < S64x200x128.numel
  bitsLt_bf16_f32 : FTy.bits .bf16 < FTy.bits .f32
  shapeCasts_S64x200x128_S12800x128 : S64x200x128.ShapeCasts S12800x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  shapeCasts_S12800x128_S64x200x128 : S12800x128.ShapeCasts S64x200x128
  inb_S64x128_S64x128_0_0 : ∀ a, (![0, 0] : Fin 2 → Nat) a + S64x128.size a ≤ S64x128.size a
  h_S64x128 : 0 < S64x128.numel
  shapeCasts_S64x128_S64x1x128 : S64x128.ShapeCasts S64x1x128
  broadcasts_S64x1x128_S64x200x128 : S64x1x128.Broadcasts S64x200x128
  inb_S1x128_S1x128_0_0 : ∀ a, (![0, 0] : Fin 2 → Nat) a + S1x128.size a ≤ S1x128.size a
  h_S1x128 : 0 < S1x128.numel
  shapeCasts_S1x128_S128 : S1x128.ShapeCasts S128
  shapeCasts_S128_S1x1x128 : S128.ShapeCasts S1x1x128
  broadcasts_S1x1x128_S64x200x128 : S1x1x128.Broadcasts S64x200x128
  reduces_S64x200x128_S64x200 : S64x200x128.Reduces [2] S64x200
  inb_S1_S1_0 : ∀ a, (![0] : Fin 1 → Nat) a + S1.size a ≤ S1.size a
  h_S1 : 0 < S1.numel
  shapeCasts_S1_S1x1 : S1.ShapeCasts S1x1
  broadcasts_S1x1_S64x200 : S1x1.Broadcasts S64x200
  inb_S64x200_S64x200_0_0 : ∀ a, (![0, 0] : Fin 2 → Nat) a + S64x200.size a ≤ S64x200.size a
  h_S64x200 : 0 < S64x200.numel
  shapeCasts_S64x200_S64x200 : S64x200.ShapeCasts S64x200
  reduces_S64x200_S64 : S64x200.Reduces [1] S64
  shapeCasts_S64_S64x1 : S64.ShapeCasts S64x1
  broadcasts_S64x1_S64x200 : S64x1.Broadcasts S64x200
  bcast_S1024_S1024x1_0 : S1024.BroadcastsInDim S1024x1 (![0] : Fin 1 → Fin S1024x1.rank)
  bcast_S_S1024x1 : S_.BroadcastsInDim S1024x1 (![] : Fin 0 → Fin S1024x1.rank)
  bcast_S1024x1_S1024x200_0_1 : S1024x1.BroadcastsInDim S1024x200 (![0, 1] : Fin 2 → Fin S1024x200.rank)
  shapeCasts_S1024x200_S204800 : S1024x200.ShapeCasts S204800
  bcast_S_S102400000 : S_.BroadcastsInDim S102400000 (![] : Fin 0 → Fin S102400000.rank)
  bcast_S_S204800 : S_.BroadcastsInDim S204800 (![] : Fin 0 → Fin S204800.rank)
  bcast_S204800_S204800x1_0 : S204800.BroadcastsInDim S204800x1 (![0] : Fin 1 → Fin S204800x1.rank)
  shapeCasts_S102400000_S1024x100000 : S102400000.ShapeCasts S1024x100000
  dot_S12800x128_S128x128_S12800x128_1_0_0_1_n_n_wf : DotDims.WF S12800x128 S128x128 S12800x128 [1] [0] [0] [1] [] []
  dot_S64x128_S128x128_S64x128_1_0_0_1_n_n_wf : DotDims.WF S64x128 S128x128 S64x128 [1] [0] [0] [1] [] []
  scatter_S102400000_S204800x1_S204800_n_0_0_1_wf : ScatterDims.WF S102400000 S204800x1 S204800 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x200x128.size a ≤ S1024x200x128.size a
  hwx0_0 : ∀ i : grid0.Coords, EltTy.bits .f32 = 32 ∨ (Rect.block (s := S1024x200x128) S64x200x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S64x128.size a ≤ S1024x128.size a
  hwx0_1 : ∀ i : grid0.Coords, EltTy.bits .f32 = 32 ∨ (Rect.block (s := S1024x128) S64x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S64x200.size a ≤ S1024x200.size a
  hwx0_2 : ∀ i : grid0.Coords, EltTy.bits .f32 = 32 ∨ (Rect.block (s := S1024x200) S64x200.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1.size a ≤ S1.size a
  hwx0_6 : ∀ i : grid0.Coords, EltTy.bits .f32 = 32 ∨ (Rect.block (s := S1) S1.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S64x200.size a ≤ S1024x200.size a
  hwx0_7 : ∀ i : grid0.Coords, EltTy.bits .f32 = 32 ∨ (Rect.block (s := S1024x200) S64x200.size (cc0_transform_7 i) (hinb0_7 i)).WholeWords (EltTy.packing .f32)

variable [Facts₀]

def dot_S12800x128_S128x128_S12800x128_1_0_0_1_n_n : DotDims S12800x128 S128x128 S12800x128 where
  lhsContracting := [1]
  rhsContracting := [0]
  lhsNonContracting := [0]
  rhsNonContracting := [1]
  lhsBatch := []
  rhsBatch := []
  wf := dot_S12800x128_S128x128_S12800x128_1_0_0_1_n_n_wf
def dot_S64x128_S128x128_S64x128_1_0_0_1_n_n : DotDims S64x128 S128x128 S64x128 where
  lhsContracting := [1]
  rhsContracting := [0]
  lhsNonContracting := [0]
  rhsNonContracting := [1]
  lhsBatch := []
  rhsBatch := []
  wf := dot_S64x128_S128x128_S64x128_1_0_0_1_n_n_wf
def scatter_S102400000_S204800x1_S204800_n_0_0_1 : ScatterDims S102400000 S204800x1 S204800 where
  updateWindowDims := []
  insertedWindowDims := [0]
  scatterDimsToOperandDims := [0]
  indexVectorDim := 1
  wf := scatter_S102400000_S204800x1_S204800_n_0_0_1_wf

abbrev win0_0 : Pipeline.Window sig grid0 :=
  Pipeline.Window.ofSpec (Memref.whole main_arg0) S64x200x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S64x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S64x200.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg6) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg7) S1.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v3) S64x200.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S1024x200x128 : Shape := ⟨3, ![1024, 200, 128]⟩
abbrev S1024x128 : Shape := ⟨2, ![1024, 128]⟩
abbrev S1024x200 : Shape := ⟨2, ![1024, 200]⟩
abbrev S128x128 : Shape := ⟨2, ![128, 128]⟩
abbrev S1x128 : Shape := ⟨2, ![1, 128]⟩
abbrev S1 : Shape := ⟨1, ![1]⟩
abbrev S1024x1x128 : Shape := ⟨3, ![1024, 1, 128]⟩
abbrev S1024x200x1 : Shape := ⟨3, ![1024, 200, 1]⟩
abbrev S1x1 : Shape := ⟨2, ![1, 1]⟩
abbrev S_ : Shape := ⟨0, ![]⟩
abbrev S1024 : Shape := ⟨1, ![1024]⟩
abbrev S1024x1 : Shape := ⟨2, ![1024, 1]⟩
abbrev S1024x100000 : Shape := ⟨2, ![1024, 100000]⟩
abbrev S1024x200x2 : Shape := ⟨3, ![1024, 200, 2]⟩

abbrev nBuf : Space → Nat
  | .hbm => 59
  | .vmem => 0
  | .smem => 0
  | _ => 0

abbrev bufTy : (tb : Table) → Fin (tcTables nBuf tb) → BufTy
  | .hbm, ⟨0, _⟩ => ⟨S1024x200x128, .f32⟩
  | .hbm, ⟨1, _⟩ => ⟨S1024x128, .f32⟩
  | .hbm, ⟨2, _⟩ => ⟨S1024x200, .i32⟩
  | .hbm, ⟨3, _⟩ => ⟨S1024x200, .i1⟩
  | .hbm, ⟨4, _⟩ => ⟨S128x128, .f32⟩
  | .hbm, ⟨5, _⟩ => ⟨S128x128, .f32⟩
  | .hbm, ⟨6, _⟩ => ⟨S1x128, .f32⟩
  | .hbm, ⟨7, _⟩ => ⟨S1, .f32⟩
  | .hbm, ⟨8, _⟩ => ⟨S1024x200x128, .f32⟩
  | .hbm, ⟨9, _⟩ => ⟨S1024x128, .f32⟩
  | .hbm, ⟨10, _⟩ => ⟨S1024x1x128, .f32⟩
  | .hbm, ⟨11, _⟩ => ⟨S1024x200x128, .f32⟩
  | .hbm, ⟨12, _⟩ => ⟨S1024x200x128, .f32⟩
  | .hbm, ⟨13, _⟩ => ⟨S1024x200x128, .f32⟩
  | .hbm, ⟨14, _⟩ => ⟨S1024x200x1, .f32⟩
  | .hbm, ⟨15, _⟩ => ⟨S1024x200, .f32⟩
  | .hbm, ⟨16, _⟩ => ⟨S1x1, .f32⟩
  | .hbm, ⟨17, _⟩ => ⟨S1024x200, .f32⟩
  | .hbm, ⟨18, _⟩ => ⟨S1024x200, .f32⟩
  | .hbm, ⟨19, _⟩ => ⟨S_, .f32⟩
  | .hbm, ⟨20, _⟩ => ⟨S1024x200, .f32⟩
  | .hbm, ⟨21, _⟩ => ⟨S1024x200, .f32⟩
  | .hbm, ⟨22, _⟩ => ⟨S_, .f32⟩
  | .hbm, ⟨23, _⟩ => ⟨S1024, .f32⟩
  | .hbm, ⟨24, _⟩ => ⟨S_, .f32⟩
  | .hbm, ⟨25, _⟩ => ⟨S1024, .f32⟩
  | .hbm, ⟨26, _⟩ => ⟨S1024, .f32⟩
  | .hbm, ⟨27, _⟩ => ⟨S1024x1, .f32⟩
  | .hbm, ⟨28, _⟩ => ⟨S1024x200, .f32⟩
  | .hbm, ⟨29, _⟩ => ⟨S1024x200, .f32⟩
  | .hbm, ⟨30, _⟩ => ⟨S1024x200, .f32⟩
  | .hbm, ⟨31, _⟩ => ⟨S_, .f32⟩
  | .hbm, ⟨32, _⟩ => ⟨S1024, .f32⟩
  | .hbm, ⟨33, _⟩ => ⟨S1024x1, .f32⟩
  | .hbm, ⟨34, _⟩ => ⟨S1024x200, .f32⟩
  | .hbm, ⟨35, _⟩ => ⟨S1024x200, .f32⟩
  | .hbm, ⟨36, _⟩ => ⟨S1024, .i32⟩
  | .hbm, ⟨37, _⟩ => ⟨S1024x1, .i32⟩
  | .hbm, ⟨38, _⟩ => ⟨S_, .f32⟩
  | .hbm, ⟨39, _⟩ => ⟨S1024x100000, .f32⟩
  | .hbm, ⟨40, _⟩ => ⟨S_, .i32⟩
  | .hbm, ⟨41, _⟩ => ⟨S1024x1, .i32⟩
  | .hbm, ⟨42, _⟩ => ⟨S1024x1, .i1⟩
  | .hbm, ⟨43, _⟩ => ⟨S_, .i32⟩
  | .hbm, ⟨44, _⟩ => ⟨S1024x1, .i32⟩
  | .hbm, ⟨45, _⟩ => ⟨S1024x1, .i32⟩
  | .hbm, ⟨46, _⟩ => ⟨S1024x1, .i32⟩
  | .hbm, ⟨47, _⟩ => ⟨S_, .i32⟩
  | .hbm, ⟨48, _⟩ => ⟨S1024x200, .i32⟩
  | .hbm, ⟨49, _⟩ => ⟨S1024x200, .i1⟩
  | .hbm, ⟨50, _⟩ => ⟨S_, .i32⟩
  | .hbm, ⟨51, _⟩ => ⟨S1024x200, .i32⟩
  | .hbm, ⟨52, _⟩ => ⟨S1024x200, .i32⟩
  | .hbm, ⟨53, _⟩ => ⟨S1024x200, .i32⟩
  | .hbm, ⟨54, _⟩ => ⟨S1024x200, .i32⟩
  | .hbm, ⟨55, _⟩ => ⟨S1024x200x1, .i32⟩
  | .hbm, ⟨56, _⟩ => ⟨S1024x200x1, .i32⟩
  | .hbm, ⟨57, _⟩ => ⟨S1024x200x2, .i32⟩
  | .hbm, ⟨58, _⟩ => ⟨S1024x100000, .f32⟩
  | _, _ => ⟨S1024x200x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_call0_v0 : Ref sig .tc := ⟨.hbm, 20, rfl⟩
abbrev main_v11 : Ref sig .tc := ⟨.hbm, 21, rfl⟩
abbrev main_cst_0 : Ref sig .tc := ⟨.hbm, 22, rfl⟩
abbrev main_v12 : Ref sig .tc := ⟨.hbm, 23, rfl⟩
abbrev main_cst_1 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_2 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_3 : Ref sig .tc := ⟨.hbm, 38, rfl⟩
abbrev main_v25 : Ref sig .tc := ⟨.hbm, 39, rfl⟩
abbrev main_c : Ref sig .tc := ⟨.hbm, 40, rfl⟩
abbrev main_v26 : Ref sig .tc := ⟨.hbm, 41, rfl⟩
abbrev main_v27 : Ref sig .tc := ⟨.hbm, 42, rfl⟩
abbrev main_c_4 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_5 : Ref sig .tc := ⟨.hbm, 47, rfl⟩
abbrev main_v31 : Ref sig .tc := ⟨.hbm, 48, rfl⟩
abbrev main_v32 : Ref sig .tc := ⟨.hbm, 49, rfl⟩
abbrev main_c_6 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩

abbrev nD : Nat := 1
abbrev τ : Topo := Topo.v7x

variable {F : FTy → Type} [FloatOps F]

class Facts₀ : Prop where
  bcast_S1024x128_S1024x1x128_0_2 : S1024x128.BroadcastsInDim S1024x1x128 (![0, 2] : Fin 2 → Fin S1024x1x128.rank)
  bcast_S1024x1x128_S1024x200x128_0_1_2 : S1024x1x128.BroadcastsInDim S1024x200x128 (![0, 1, 2] : Fin 3 → Fin S1024x200x128.rank)
  shapeCasts_S1024x200x1_S1024x200 : S1024x200x1.ShapeCasts S1024x200
  bcast_S1_S1x1_1 : S1.BroadcastsInDim S1x1 (![1] : Fin 1 → Fin S1x1.rank)
  bcast_S1x1_S1024x200_0_1 : S1x1.BroadcastsInDim S1024x200 (![0, 1] : Fin 2 → Fin S1024x200.rank)
  bcast_S_S1024x200 : S_.BroadcastsInDim S1024x200 (![] : Fin 0 → Fin S1024x200.rank)
  reducesTo_S1024x200_S1024_d1 : S1024x200.ReducesTo [1] S1024
  h_S_ : 0 < S_.numel
  bcast_S_S1024 : S_.BroadcastsInDim S1024 (![] : Fin 0 → Fin S1024.rank)
  bcast_S1024_S1024x1_0 : S1024.BroadcastsInDim S1024x1 (![0] : Fin 1 → Fin S1024x1.rank)
  bcast_S1024x1_S1024x200_0_1 : S1024x1.BroadcastsInDim S1024x200 (![0, 1] : Fin 2 → Fin S1024x200.rank)
  bcast_S_S1024x100000 : S_.BroadcastsInDim S1024x100000 (![] : Fin 0 → Fin S1024x100000.rank)
  bcast_S_S1024x1 : S_.BroadcastsInDim S1024x1 (![] : Fin 0 → Fin S1024x1.rank)
  bcast_S1024x200_S1024x200x1_0_1 : S1024x200.BroadcastsInDim S1024x200x1 (![0, 1] : Fin 2 → Fin S1024x200x1.rank)
  concatenates_S1024x200x1_S1024x200x1_S1024x200x2_d2 : Shape.Concatenates [S1024x200x1, S1024x200x1] S1024x200x2 2
  dot_S1024x200x128_S128x128_S1024x200x128_2_1_01_0_n_n_wf : DotDims.WF S1024x200x128 S128x128 S1024x200x128 [2] [1] [0, 1] [0] [] []
  dot_S1024x128_S128x128_S1024x128_1_1_0_0_n_n_wf : DotDims.WF S1024x128 S128x128 S1024x128 [1] [1] [0] [0] [] []
  dot_S1024x200x128_S1x128_S1024x200x1_2_1_01_0_n_n_wf : DotDims.WF S1024x200x128 S1x128 S1024x200x1 [2] [1] [0, 1] [0] [] []
  scatter_S1024x100000_S1024x200x2_S1024x200_n_01_01_2_wf : ScatterDims.WF S1024x100000 S1024x200x2 S1024x200 [] [0, 1] [0, 1] 2

variable [Facts₀]

def dot_S1024x200x128_S128x128_S1024x200x128_2_1_01_0_n_n : DotDims S1024x200x128 S128x128 S1024x200x128 where
  lhsContracting := [2]
  rhsContracting := [1]
  lhsNonContracting := [0, 1]
  rhsNonContracting := [0]
  lhsBatch := []
  rhsBatch := []
  wf := dot_S1024x200x128_S128x128_S1024x200x128_2_1_01_0_n_n_wf
def dot_S1024x128_S128x128_S1024x128_1_1_0_0_n_n : DotDims S1024x128 S128x128 S1024x128 where
  lhsContracting := [1]
  rhsContracting := [1]
  lhsNonContracting := [0]
  rhsNonContracting := [0]
  lhsBatch := []
  rhsBatch := []
  wf := dot_S1024x128_S128x128_S1024x128_1_1_0_0_n_n_wf
def dot_S1024x200x128_S1x128_S1024x200x1_2_1_01_0_n_n : DotDims S1024x200x128 S1x128 S1024x200x1 where
  lhsContracting := [2]
  rhsContracting := [1]
  lhsNonContracting := [0, 1]
  rhsNonContracting := [0]
  lhsBatch := []
  rhsBatch := []
  wf := dot_S1024x200x128_S1x128_S1024x200x1_2_1_01_0_n_n_wf
def scatter_S1024x100000_S1024x200x2_S1024x200_n_01_01_2 : ScatterDims S1024x100000 S1024x200x2 S1024x200 where
  updateWindowDims := []
  insertedWindowDims := [0, 1]
  scatterDimsToOperandDims := [0, 1]
  indexVectorDim := 2
  wf := scatter_S1024x100000_S1024x200x2_S1024x200_n_01_01_2_wf

class Facts : Prop extends Facts₀ where

variable [Facts]
-- ==== Proof.Spec.lean ====
/-
  The mathematics both programs compute, with no program in sight.

  ONE BATCH ROW.  For a row's memory `xr : 200 × 128`, its last state `lr : 128`, its padding flags `sel : 200`,
  two weight matrices `U W` (entry `U k h` multiplies input coordinate `k` into hidden coordinate `h`), a readout
  vector `v` and a bias `β`:

    lin s h  = Σ_k xr s k · U k h  +  Σ_k lr k · W k h
    raw s    = Σ_h tanh (lin s h) · v h  +  β
    score s  = the fill value where the position is flagged, raw s elsewhere
    top      = max_s score s                      (a fold of max from −∞)
    weight s = exp (score s − top)
    attRow s = weight s / Σ_s' weight s'

  over the extended reals: every sum is a finite sum in the commutative monoid `EReal`, so its order and grouping do
  not matter, and no law beyond that is used anywhere (in particular nothing is distributed and nothing cancelled, so
  no entry needs to be finite).

  THE BINS.  `binned a item b n` adds up row `b`'s entries `a b s` over the positions `s` whose item id, a 32-bit
  word read as a signed integer, is `n`.
-/
import Idealize.ShloMosaic.PureOps.Ideal

noncomputable section

open scoped BigOperators

namespace Cert.Spec

open Idealize.ShloMosaic

/-- The value written over a flagged position before the softmax: the float32 word of −10⁹, never evaluated. -/
abbrev fill : EReal := Ideal.ofBits .f32 0xCE6E6B28#32

/-- The pre-activation of hidden coordinate `h` at position `s`. -/
def lin (xr : Fin 200 → Fin 128 → EReal) (lr : Fin 128 → EReal) (U W : Fin 128 → Fin 128 → EReal)
    (s : Fin 200) (h : Fin 128) : EReal :=
  (∑ k : Fin 128, xr s k * U k h) + ∑ k : Fin 128, lr k * W k h

/-- The unmasked score of position `s`. -/
def raw (xr : Fin 200 → Fin 128 → EReal) (lr : Fin 128 → EReal) (U W : Fin 128 → Fin 128 → EReal)
    (v : Fin 128 → EReal) (β : EReal) (s : Fin 200) : EReal :=
  (∑ h : Fin 128, Ideal.tanh (lin xr lr U W s h) * v h) + β

/-- The score of position `s`: the fill value where the position is flagged. -/
def score (xr : Fin 200 → Fin 128 → EReal) (lr : Fin 128 → EReal) (sel : Fin 200 → BitVec 1)
    (U W : Fin 128 → Fin 128 → EReal) (v : Fin 128 → EReal) (β : EReal) (s : Fin 200) : EReal :=
  if sel s = 1 then fill else raw xr lr U W v β s

/-- The row's largest score. -/
def top (xr : Fin 200 → Fin 128 → EReal) (lr : Fin 128 → EReal) (sel : Fin 200 → BitVec 1)
    (U W : Fin 128 → Fin 128 → EReal) (v : Fin 128 → EReal) (β : EReal) : EReal :=
  (Finset.univ : Finset (Fin 200)).fold max (⊥ : EReal) (score xr lr sel U W v β)

/-- The unnormalised softmax weight of position `s`. -/
def weight (xr : Fin 200 → Fin 128 → EReal) (lr : Fin 128 → EReal) (sel : Fin 200 → BitVec 1)
    (U W : Fin 128 → Fin 128 → EReal) (v : Fin 128 → EReal) (β : EReal) (s : Fin 200) : EReal :=
  Ideal.exp (score xr lr sel U W v β s - top xr lr sel U W v β)

/-- The attention weight of position `s` of one batch row. -/
def attRow (xr : Fin 200 → Fin 128 → EReal) (lr : Fin 128 → EReal) (sel : Fin 200 → BitVec 1)
    (U W : Fin 128 → Fin 128 → EReal) (v : Fin 128 → EReal) (β : EReal) (s : Fin 200) : EReal :=
  Ideal.div (weight xr lr sel U W v β s) (∑ s' : Fin 200, weight xr lr sel U W v β s')

/-- Row `b`'s entries added up per item id: bin `n` collects the positions whose id, read signed, is `n`. -/
def binned (a : Fin 1024 → Fin 200 → EReal) (item : Fin 1024 → Fin 200 → BitVec 32) (b : Fin 1024)
    (n : Fin 100000) : EReal :=
  ∑ s : Fin 200, if (item b s).toInt = (n.val : Int) then a b s else 0

end Cert.Spec

end
-- ==== Proof.LibDot.lean ====
/-
  A plain matrix product read at an index, at the ideal values.

  For dimension numbers that contract the left operand's axis 1 with the right operand's axis 0 and keep the
  left's axis 0 and the right's axis 1, with no batch axis — an `M × K` by `K × N` product —, the result at
  `(a, b)` is `∑ k, l (a, k) · r (k, b)` over `k : Fin K`: for the kernel's matrix unit accumulating into a
  zero vector and for the host's `dot_general` alike. The library states both as a sum over the contraction
  shape's indices at the operand indices `lhsIdx` / `rhsIdx`; here those are read off, coordinate by
  coordinate, and the sum is re-indexed by the contraction shape's one coordinate.
-/
import Idealize.ShloMosaic.PureOps.Ideal.Laws
import Idealize.ShloMosaic.Lib.ValueIdx

noncomputable section

namespace Cert.LibDot

open Idealize.ShloMosaic Idealize.ShloMosaic.ValueIdx

variable {M K N : Nat} (D : DotDims ⟨2, ![M, K]⟩ ⟨2, ![K, N]⟩ ⟨2, ![M, N]⟩)

/-- The left operand's row is the result's row. -/
theorem lhs_row (hlb : D.lhsBatch = []) (hln : D.lhsNonContracting = [0]) (j : (⟨2, ![M, N]⟩ : Shape).Idx) (k : D.contr.Idx) :
    (D.lhsIdx j k 0).val = (j 0).val := by
  unfold DotDims.lhsIdx
  rw [dif_neg (by rw [hlb]; exact List.not_mem_nil), dif_pos (by rw [hln]; exact List.mem_singleton.mpr rfl)]
  simp only [Fin.val_cast]
  have key : ∀ (p q : Nat) (hp : p < 2) (hq : q < 2), p = q → (j ⟨p, hp⟩).val = (j ⟨q, hq⟩).val :=
    fun p q hp hq h => by subst h; rfl
  exact key _ _ _ _ (by simp [hlb, hln])

/-- The left operand's column is the contraction coordinate. -/
theorem lhs_col (hlc : D.lhsContracting = [1]) (j : (⟨2, ![M, N]⟩ : Shape).Idx) (k : D.contr.Idx) :
    (D.lhsIdx j k 1).val = (k ⟨0, by rw [D.rank_contr, hlc]; exact Nat.one_pos⟩).val :=
  D.lhsIdx_val_of_single hlc j k

/-- The right operand's row is the contraction coordinate. -/
theorem rhs_row (hrc : D.rhsContracting = [0]) (j : (⟨2, ![M, N]⟩ : Shape).Idx) (k : D.contr.Idx) :
    (D.rhsIdx j k 0).val = (k ⟨0, by rw [D.rank_contr, ← D.length_contracting, hrc]; exact Nat.one_pos⟩).val :=
  D.rhsIdx_val_of_single hrc j k

/-- The right operand's column is the result's column. -/
theorem rhs_col (hlb : D.lhsBatch = []) (hrb : D.rhsBatch = []) (hln : D.lhsNonContracting = [0]) (hrn : D.rhsNonContracting = [1])
    (j : (⟨2, ![M, N]⟩ : Shape).Idx) (k : D.contr.Idx) :
    (D.rhsIdx j k 1).val = (j 1).val := by
  unfold DotDims.rhsIdx
  rw [dif_neg (by rw [hrb]; exact List.not_mem_nil), dif_pos (by rw [hrn]; exact List.mem_singleton.mpr rfl)]
  simp only [Fin.val_cast]
  have key : ∀ (p q : Nat) (hp : p < 2) (hq : q < 2), p = q → (j ⟨p, hp⟩).val = (j ⟨q, hq⟩).val :=
    fun p q hp hq h => by subst h; rfl
  exact key _ _ _ _ (by simp [hlb, hln, hrn])

/-- The contraction shape has one axis, of extent `K`. -/
theorem contr_rank (hlc : D.lhsContracting = [1]) : D.contr.rank = 1 := by rw [D.rank_contr, hlc]; rfl

theorem contr_size (hlc : D.lhsContracting = [1]) :
    D.contr.size ⟨0, by rw [contr_rank D hlc]; exact Nat.one_pos⟩ = K := by
  have h := D.size_contr 0 (by rw [hlc]; exact Nat.one_pos)
  rw [h]
  simp [hlc]

/-- The library's sum over the contraction indices, as the sum over `Fin K` of the products along row `a` of the left
    operand and column `b` of the right. -/
theorem sum_plain (hlc : D.lhsContracting = [1]) (hrc : D.rhsContracting = [0]) (hln : D.lhsNonContracting = [0])
    (hrn : D.rhsNonContracting = [1]) (hlb : D.lhsBatch = []) (hrb : D.rhsBatch = [])
    (l : (⟨2, ![M, K]⟩ : Shape).Idx → EReal) (r : (⟨2, ![K, N]⟩ : Shape).Idx → EReal) (a : Fin M) (b : Fin N) :
    ∑ k : D.contr.Idx, l (D.lhsIdx (ix2 a b) k) * r (D.rhsIdx (ix2 a b) k) = ∑ k : Fin K, l (ix2 a k) * r (ix2 k b) := by
  rw [← Equiv.sum_comp (contrEquiv1 D K (contr_rank D hlc) (contr_size D hlc)).symm]
  refine Finset.sum_congr rfl fun k _ => ?_
  have hk := contrEquiv1_symm_val D K (contr_rank D hlc) (contr_size D hlc) k
  have e1 : D.lhsIdx (ix2 a b) ((contrEquiv1 D K (contr_rank D hlc) (contr_size D hlc)).symm k) = ix2 a k := by
    funext x; refine Fin.ext ?_
    match x with
    | ⟨0, _⟩ => exact lhs_row D hlb hln _ _
    | ⟨1, _⟩ => exact (lhs_col D hlc _ _).trans hk
  have e2 : D.rhsIdx (ix2 a b) ((contrEquiv1 D K (contr_rank D hlc) (contr_size D hlc)).symm k) = ix2 k b := by
    funext x; refine Fin.ext ?_
    match x with
    | ⟨0, _⟩ => exact (rhs_row D hrc _ _).trans hk
    | ⟨1, _⟩ => exact rhs_col D hlb hrb hln hrn _ _
  rw [e1, e2]

/-- The kernel's matrix product into a zero accumulator, read at `(a, b)`. -/
theorem matmul_plain_apply {φ₁ φ₂ : FTy} (hlc : D.lhsContracting = [1]) (hrc : D.rhsContracting = [0]) (hln : D.lhsNonContracting = [0])
    (hrn : D.rhsNonContracting = [1]) (hlb : D.lhsBatch = []) (hrb : D.rhsBatch = []) (prec : Option ContractPrecision)
    (l : FVec Ideal ⟨2, ![M, K]⟩ φ₁) (r : FVec Ideal ⟨2, ![K, N]⟩ φ₂) (a : Fin M) (b : Fin N) :
    matmul D prec l r (constant ⟨2, ![M, N]⟩ .f32 0x00000000#32) (ix2 a b) = ∑ k : Fin K, l (ix2 a k) * r (ix2 k b) := by
  show FloatOps.matmul D prec l r (constant ⟨2, ![M, N]⟩ .f32 0x00000000#32) (ix2 a b) = _
  rw [Ideal.matmul_constant_zero_apply]
  exact sum_plain D hlc hrc hln hrn hlb hrb l r a b

/-- The host's product read at `(a, b)`. -/
theorem dotGeneral_plain_apply {φ₁ φ₂ : FTy} (hlc : D.lhsContracting = [1]) (hrc : D.rhsContracting = [0]) (hln : D.lhsNonContracting = [0])
    (hrn : D.rhsNonContracting = [1]) (hlb : D.lhsBatch = []) (hrb : D.rhsBatch = []) (prec : Option ContractPrecision)
    (l : FVec Ideal ⟨2, ![M, K]⟩ φ₁) (r : FVec Ideal ⟨2, ![K, N]⟩ φ₂) (a : Fin M) (b : Fin N) :
    Host.dotGeneral D prec l r (ix2 a b) = ∑ k : Fin K, l (ix2 a k) * r (ix2 k b) := by
  show FloatOps.dotGeneral D prec .single l r (ix2 a b) = _
  rw [Ideal.dotGeneral_apply]
  exact sum_plain D hlc hrc hln hrn hlb hrb l r a b

end Cert.LibDot

end
-- ==== Proof.LibColumn.lean ====
/-
  Two layout readings for a vector used as a COLUMN: a length-`a` vector cast to shape `[a, 1]`, and an `[a, 1]`
  column broadcast along a second axis to `[a, b]`. Both read, at `(i, ·)`, the vector's entry `i`: the cast
  because row-major position `i · 1 + 0` is `i`, the broadcast because the unit axis is pinned at `0` and the
  long axis is carried over.
-/
import Idealize.ShloMosaic.Lib.Pipeline.Value
import Idealize.ShloMosaic.Lib.ValueIdx
import Idealize.ShloMosaic.Lib.ValueLayout

noncomputable section

namespace Cert.LibColumn

open Idealize.ShloMosaic Idealize.ShloMosaic.ValueIdx

variable {α : Type}

/-- A length-`a` vector cast to `[a, 1]` reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

/-- An `[a, 1]` column broadcast to `[a, b]` reads, at `(p, c)`, the column at `(p, 0)`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

/-- Together: a vector laid along the rows of an `[a, b]` array reads, at `(p, c)`, the vector at `p`. -/
theorem column_of_vector_apply {a b : ℕ} (x : (⟨1, ![a]⟩ : Shape).Idx → α) (h₁ : (⟨1, ![a]⟩ : Shape).ShapeCasts ⟨2, ![a, 1]⟩)
    (h₂ : (⟨2, ![a, 1]⟩ : Shape).Broadcasts ⟨2, ![a, b]⟩) (p : Fin a) (c : Fin b) :
    broadcastTo ⟨2, ![a, b]⟩ (shapeCast ⟨2, ![a, 1]⟩ x h₁) h₂ (ix2 p c) = x (ix1 p) :=
  (broadcastTo_a1_ab_apply _ h₂ p c).trans (shapeCast_a_a1_apply x h₁ p 0)

end Cert.LibColumn

end
-- ==== Proof.LibRow2.lean ====
/-
  Rows of an `[a, b]` array at the ideal values, read at an index, and the unit axis of a `[1, a, b]` block.

  * a maximum-reduction of an `[a, b]` array along its last axis is, at row `r`, the fold of `max` from the accumulator's
    value over the `b` entries of the row; an add-reduction is the sum of the row's entries;
  * a `[1, a, b]` array cast to `[a, b]` reads, at `(p, s)`, the array at `(0, p, s)`, and an `[a, b]` array cast to
    `[1, a, b]` reads, at `(u, p, s)`, the array at `(p, s)`: the row-major positions agree, the unit axis weighing nothing.
-/
import Idealize.ShloMosaic.PureOps.Reduce
import Idealize.ShloMosaic.PureOps.Ideal.Laws
import Idealize.ShloMosaic.Lib.ValueIdx
import Idealize.ShloMosaic.Lib.Pipeline.Value

noncomputable section

open scoped BigOperators

namespace Cert.LibRow2

open Idealize.ShloMosaic Idealize.ShloMosaic.ValueIdx

variable {a b : Nat}

/-- The reduced index `r` with the coordinate `k` put back on the last axis is `(r, k)`. -/
theorem lift_last (h : (⟨2, ![a, b]⟩ : Shape).Reduces [1] ⟨1, ![a]⟩) (r : Fin a)
    (k : Fin ((⟨2, ![a, b]⟩ : Shape).size 1)) : h.lift (ix1 r) k = ix2 r (⟨k.val, k.isLt⟩ : Fin b) := by
  funext c; apply Fin.ext
  fin_cases c <;> rfl

/-- A maximum-reduction along the last axis, at row `r`: the fold of `max` from the accumulator's value over the row. -/
theorem rowMax_apply {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ)
    (r : Fin a) :
    multiReduction .maximumf [1] ⟨1, ![a]⟩ src acc h hφ hacc (ix1 r)
      = (Finset.univ : Finset (Fin b)).fold max (Ideal.ofBits φ acc) (fun k => src (ix2 r k)) := by
  rw [Ideal.multiReduction_maximumf_single]
  have hf : (src ∘ h.lift (ix1 r)) = fun k : Fin b => src (ix2 r k) := funext fun k => congrArg src (lift_last h r k)
  exact congrArg (fun f => Finset.fold max (Ideal.ofBits φ acc) f (Finset.univ : Finset (Fin b))) hf

/-- An add-reduction along the last axis, at row `r`: the sum of the row. -/
theorem rowSum_apply {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (r : Fin a) :
    multiReduction .add [1] ⟨1, ![a]⟩ src acc h hφ hacc (ix1 r) = ∑ k : Fin b, src (ix2 r k) := by
  rw [Ideal.multiReduction_add_single]
  exact Finset.sum_congr rfl fun k _ => congrArg src (lift_last h r k)

/-- The f32 word of −∞ is the bottom of the extended reals. -/
theorem ofBits_neg_inf_f32 : Ideal.ofBits .f32 0xFF800000#32 = (⊥ : EReal) := by
  simp [Ideal.ofBits, Ideal.ieee]

variable {α : Type}

/-- A `[1, a, b]` array cast to `[a, b]` reads, at `(p, s)`, the array at `(0, p, s)`. -/
theorem dropUnit_apply (x : (⟨3, ![1, a, b]⟩ : Shape).Idx → α) (h : (⟨3, ![1, a, b]⟩ : Shape).ShapeCasts ⟨2, ![a, b]⟩)
    (p : Fin a) (s : Fin b) : shapeCast ⟨2, ![a, b]⟩ x h (ix2 p s) = x (ix3 (0 : Fin 1) p s) :=
  shapeCast_apply x h _ _ (by
    rw [Shape.rowMajor_val_three, Shape.rowMajor_val_two]
    show ((0 : ℕ) * a + p.val) * b + s.val = p.val * b + s.val
    rw [Nat.zero_mul, Nat.zero_add])

/-- An `[a, b]` array cast to `[1, a, b]` reads, at `(u, p, s)`, the array at `(p, s)`. -/
theorem addUnit_apply (x : (⟨2, ![a, b]⟩ : Shape).Idx → α) (h : (⟨2, ![a, b]⟩ : Shape).ShapeCasts ⟨3, ![1, a, b]⟩)
    (u : Fin 1) (p : Fin a) (s : Fin b) : shapeCast ⟨3, ![1, a, b]⟩ x h (ix3 u p s) = x (ix2 p s) :=
  shapeCast_apply x h _ _ (by
    have hu : u.val = 0 := by omega
    rw [Shape.rowMajor_val_two, Shape.rowMajor_val_three]
    show p.val * b + s.val = (u.val * a + p.val) * b + s.val
    rw [hu, Nat.zero_mul, Nat.zero_add])

end Cert.LibRow2

end
-- ==== Proof.KernelRow.lean ====
/-
  The kernel body's value at one entry.

  The body's arithmetic is two pure functions of the blocks it loads.  The first casts the memory block
  `[64, 200, 128]` to `[12800, 128]`, multiplies it by the first weight matrix, casts the product back, adds the last
  state's product with the second weight matrix laid along the positions, applies `tanh`, multiplies by the readout
  vector laid along rows and positions, sums the lanes, adds the bias, overwrites the flagged positions with the fill
  value, subtracts the row's maximum and exponentiates; the second divides by the row's sum.  Read at entry `(p, q)`
  this is `Cert.Spec.attRow` of row `p`'s data at position `q`.

  Every step is a reading at an index: a cast keeps the row-major position, a broadcast pins the unit axes at `0`, a
  format change is the identity on extended reals, a matrix product into zeros is the sum of the products along the
  contracted axis, a reduction along the last axis is the sum (the fold of `max`) over that axis.  No law of the
  extended reals is used: the two sides are the same expression.
-/
import proofs.«404053_j12146167513170_2_alg».proof.Proof.Gen.KernelIdeal.Skeleton
import proofs.«404053_j12146167513170_2_alg».proof.Proof.Spec
import proofs.«404053_j12146167513170_2_alg».proof.Proof.LibDot
import proofs.«404053_j12146167513170_2_alg».proof.Proof.LibColumn
import proofs.«404053_j12146167513170_2_alg».proof.Proof.LibRow2
import Idealize.ShloMosaic.PureOps.Ideal.Laws
import Idealize.ShloMosaic.Lib.ValueIdx
import Idealize.ShloMosaic.Lib.Pipeline.Value

noncomputable section

open scoped BigOperators

namespace Cert.KernelRow

open Idealize.ShloMosaic Idealize.ShloMosaic.ValueIdx Cert.KernelIdeal Cert.KernelIdeal.Gen

/-! ## Layout readings -/

section Layout
variable {α : Type} {a b c : Nat}

/-- An `[a, b, c]` array cast to `[n, c]` with `n = a · b` reads, at `(p · b + s, k)`, the array at `(p, s, k)`. -/
theorem flatten_apply {n : Nat} (x : (⟨3, ![a, b, c]⟩ : Shape).Idx → α) (h : (⟨3, ![a, b, c]⟩ : Shape).ShapeCasts ⟨2, ![n, c]⟩)
    (p : Fin a) (s : Fin b) (k : Fin c) (hlt : p.val * b + s.val < n) :
    shapeCast ⟨2, ![n, c]⟩ x h (ix2 (⟨p.val * b + s.val, hlt⟩ : Fin n) k) = x (ix3 p s k) :=
  shapeCast_apply x h _ _ (by
    rw [Shape.rowMajor_val_three, Shape.rowMajor_val_two]
    rfl)

/-- An `[n, c]` array with `n = a · b` cast to `[a, b, c]` reads, at `(p, s, k)`, the array at `(p · b + s, k)`. -/
theorem unflatten_apply {n : Nat} (y : (⟨2, ![n, c]⟩ : Shape).Idx → α) (h : (⟨2, ![n, c]⟩ : Shape).ShapeCasts ⟨3, ![a, b, c]⟩)
    (p : Fin a) (s : Fin b) (k : Fin c) (hlt : p.val * b + s.val < n) :
    shapeCast ⟨3, ![a, b, c]⟩ y h (ix3 p s k) = y (ix2 (⟨p.val * b + s.val, hlt⟩ : Fin n) k) :=
  shapeCast_apply y h _ _ (by
    rw [Shape.rowMajor_val_three, Shape.rowMajor_val_two]
    rfl)

/-- A cast of an `[a, b]` array to its own shape reads the array. -/
theorem sameCast_apply (x : (⟨2, ![a, b]⟩ : Shape).Idx → α) (h : (⟨2, ![a, b]⟩ : Shape).ShapeCasts ⟨2, ![a, b]⟩)
    (p : Fin a) (s : Fin b) : shapeCast ⟨2, ![a, b]⟩ x h (ix2 p s) = x (ix2 p s) :=
  shapeCast_apply x h _ _ rfl

/-- An `[a, c]` array cast to `[a, 1, c]` reads, at `(p, u, k)`, the array at `(p, k)`. -/
theorem midUnit_apply (x : (⟨2, ![a, c]⟩ : Shape).Idx → α) (h : (⟨2, ![a, c]⟩ : Shape).ShapeCasts ⟨3, ![a, 1, c]⟩)
    (p : Fin a) (u : Fin 1) (k : Fin c) : shapeCast ⟨3, ![a, 1, c]⟩ x h (ix3 p u k) = x (ix2 p k) :=
  shapeCast_apply x h _ _ (by
    have hu : u.val = 0 := by omega
    rw [Shape.rowMajor_val_two, Shape.rowMajor_val_three]
    show p.val * c + k.val = (p.val * 1 + u.val) * c + k.val
    rw [hu, Nat.mul_one, Nat.add_zero])

/-- An `[a, 1, c]` array broadcast to `[a, b, c]` reads, at `(p, s, k)`, the array at `(p, 0, k)`. -/
theorem midBroadcast_apply (v : (⟨3, ![a, 1, c]⟩ : Shape).Idx → α) (h : (⟨3, ![a, 1, c]⟩ : Shape).Broadcasts ⟨3, ![a, b, c]⟩)
    (p : Fin a) (s : Fin b) (k : Fin c) : broadcastTo ⟨3, ![a, b, c]⟩ v h (ix3 p s k) = v (ix3 p (0 : Fin 1) k) := by
  refine broadcastTo_apply v h (ix3 p s k) (ix3 p (0 : Fin 1) k) fun ax => ?_
  match ax with
  | ⟨0, _⟩ =>
    show p.val = if a = 1 then 0 else p.val
    split
    · have := p.isLt; omega
    · rfl
  | ⟨1, _⟩ =>
    show (0 : ℕ) = if (1 : ℕ) = 1 then 0 else s.val
    rw [if_pos rfl]
  | ⟨2, _⟩ =>
    show k.val = if c = 1 then 0 else k.val
    split
    · have := k.isLt; omega
    · rfl

/-- A `[1, c]` array cast to `[c]` reads, at `k`, the array at `(0, k)`. -/
theorem dropRow_apply (x : (⟨2, ![1, c]⟩ : Shape).Idx → α) (h : (⟨2, ![1, c]⟩ : Shape).ShapeCasts ⟨1, ![c]⟩)
    (k : Fin c) : shapeCast ⟨1, ![c]⟩ x h (ix1 k) = x (ix2 (0 : Fin 1) k) :=
  shapeCast_apply x h _ _ (by
    rw [Shape.rowMajor_val_two, Shape.rowMajor_val_one]
    show (0 : ℕ) * c + k.val = k.val
    rw [Nat.zero_mul, Nat.zero_add])

/-- A length-`c` vector cast to `[1, 1, c]` reads, at `(u, u', k)`, the vector at `k`. -/
theorem twoUnits_apply (x : (⟨1, ![c]⟩ : Shape).Idx → α) (h : (⟨1, ![c]⟩ : Shape).ShapeCasts ⟨3, ![1, 1, c]⟩)
    (u u' : Fin 1) (k : Fin c) : shapeCast ⟨3, ![1, 1, c]⟩ x h (ix3 u u' k) = x (ix1 k) :=
  shapeCast_apply x h _ _ (by
    have hu : u.val = 0 := by omega
    have hu' : u'.val = 0 := by omega
    rw [Shape.rowMajor_val_one, Shape.rowMajor_val_three]
    show k.val = (u.val * 1 + u'.val) * c + k.val
    rw [hu, hu']
    omega)

/-- A `[1, 1, c]` array broadcast to `[a, b, c]` reads, at `(p, s, k)`, the array at `(0, 0, k)`. -/
theorem laneBroadcast_apply (v : (⟨3, ![1, 1, c]⟩ : Shape).Idx → α) (h : (⟨3, ![1, 1, c]⟩ : Shape).Broadcasts ⟨3, ![a, b, c]⟩)
    (p : Fin a) (s : Fin b) (k : Fin c) :
    broadcastTo ⟨3, ![a, b, c]⟩ v h (ix3 p s k) = v (ix3 (0 : Fin 1) (0 : Fin 1) k) := by
  refine broadcastTo_apply v h (ix3 p s k) (ix3 (0 : Fin 1) (0 : Fin 1) k) fun ax => ?_
  match ax with
  | ⟨0, _⟩ =>
    show (0 : ℕ) = if (1 : ℕ) = 1 then 0 else p.val
    rw [if_pos rfl]
  | ⟨1, _⟩ =>
    show (0 : ℕ) = if (1 : ℕ) = 1 then 0 else s.val
    rw [if_pos rfl]
  | ⟨2, _⟩ =>
    show k.val = if c = 1 then 0 else k.val
    split
    · have := k.isLt; omega
    · rfl

/-- A one-entry vector cast to `[1, 1]` and broadcast to `[a, b]` reads its entry everywhere. -/
theorem scalarFill_apply (x : (⟨1, ![1]⟩ : Shape).Idx → α) (h₁ : (⟨1, ![1]⟩ : Shape).ShapeCasts ⟨2, ![1, 1]⟩)
    (h₂ : (⟨2, ![1, 1]⟩ : Shape).Broadcasts ⟨2, ![a, b]⟩) (p : Fin a) (s : Fin b) :
    broadcastTo ⟨2, ![a, b]⟩ (shapeCast ⟨2, ![1, 1]⟩ x h₁) h₂ (ix2 p s) = x (ix1 (0 : Fin 1)) := by
  have e : broadcastTo ⟨2, ![a, b]⟩ (shapeCast ⟨2, ![1, 1]⟩ x h₁) h₂ (ix2 p s)
      = shapeCast ⟨2, ![1, 1]⟩ x h₁ (ix2 (0 : Fin 1) (0 : Fin 1)) := by
    refine broadcastTo_apply _ h₂ (ix2 p s) (ix2 (0 : Fin 1) (0 : Fin 1)) fun ax => ?_
    match ax with
    | ⟨0, _⟩ =>
      show (0 : ℕ) = if (1 : ℕ) = 1 then 0 else p.val
      rw [if_pos rfl]
    | ⟨1, _⟩ =>
      show (0 : ℕ) = if (1 : ℕ) = 1 then 0 else s.val
      rw [if_pos rfl]
  rw [e]
  exact LibColumn.shapeCast_a_a1_apply x h₁ 0 0

end Layout

/-! ## The lane sum -/

section Lane
variable {a b c : Nat}

/-- The reduced index `(p, s)` with the coordinate `k` put back on the last axis is `(p, s, k)`. -/
theorem lift_lane (h : (⟨3, ![a, b, c]⟩ : Shape).Reduces [2] ⟨2, ![a, b]⟩) (p : Fin a) (s : Fin b)
    (k : Fin ((⟨3, ![a, b, c]⟩ : Shape).size 2)) : h.lift (ix2 p s) k = ix3 p s (⟨k.val, k.isLt⟩ : Fin c) := by
  funext d; apply Fin.ext
  fin_cases d <;> rfl

/-- An add-reduction of an `[a, b, c]` array along its last axis, at `(p, s)`: the sum over the lanes. -/
theorem laneSum_apply {φ : FTy} (src : FVec Ideal ⟨3, ![a, b, c]⟩ φ) (acc : BitVec φ.bits)
    (h : (⟨3, ![a, b, c]⟩ : Shape).Reduces [2] ⟨2, ![a, b]⟩) (hφ : FKind.Formats φ) (hacc : acc = FKind.add.neutral φ hφ)
    (p : Fin a) (s : Fin b) :
    multiReduction .add [2] ⟨2, ![a, b]⟩ src acc h hφ hacc (ix2 p s) = ∑ k : Fin c, src (ix3 p s k) := by
  rw [Ideal.multiReduction_add_single]
  exact Finset.sum_congr rfl fun k _ => congrArg src (lift_lane h p s k)

end Lane

/-! ## The operations of the body at an index -/

section Pointwise
variable {s : Shape} {φ : FTy}

/-- A hyperbolic tangent at an index is the element's. -/
theorem tanh_apply (x : FVec Ideal s φ) (i : s.Idx) : tanh x i = Ideal.tanh (x i) := rfl

/-- An exponential at an index is the element's. -/
theorem exp_apply (x : FVec Ideal s φ) (i : s.Idx) : exp x i = Ideal.exp (x i) := rfl

end Pointwise

/-- Position `s` of row `p` is row `p · 200 + s` of the `[12800, 128]` cast. -/
theorem rows_lt (p : Fin 64) (s : Fin 200) : p.val * 200 + s.val < 12800 := by omega

/-- The memory block's product, read at `(i, h)`: the sum of the products along the contracted axis. -/
theorem mm1_apply (l : FVec Ideal S12800x128 .bf16) (r : FVec Ideal S128x128 .bf16) (i : Fin 12800) (h : Fin 128) :
    matmul dot_S12800x128_S128x128_S12800x128_1_0_0_1_n_n none l r (constant S12800x128 .f32 0x00000000#32) (ix2 i h)
      = ∑ k : Fin 128, l (ix2 i k) * r (ix2 k h) :=
  LibDot.matmul_plain_apply _ rfl rfl rfl rfl rfl rfl none l r i h

/-- The last state's product, read at `(p, h)`. -/
theorem mm2_apply (l : FVec Ideal S64x128 .bf16) (r : FVec Ideal S128x128 .bf16) (p : Fin 64) (h : Fin 128) :
    matmul dot_S64x128_S128x128_S64x128_1_0_0_1_n_n none l r (constant S64x128 .f32 0x00000000#32) (ix2 p h)
      = ∑ k : Fin 128, l (ix2 p k) * r (ix2 k h) :=
  LibDot.matmul_plain_apply _ rfl rfl rfl rfl rfl rfl none l r p h

/-- The `[12800, 128]` product cast back to `[64, 200, 128]` reads, at `(p, s, h)`, row `p · 200 + s`. -/
theorem rowsBack_apply {α : Type} (y : S12800x128.Idx → α) (hc : S12800x128.ShapeCasts S64x200x128)
    (p : Fin 64) (s : Fin 200) (h : Fin 128) :
    shapeCast S64x200x128 y hc (ix3 p s h) = y (ix2 (⟨p.val * 200 + s.val, rows_lt p s⟩ : Fin 12800) h) :=
  unflatten_apply y hc p s h (rows_lt p s)

/-- The memory block cast to `[12800, 128]` reads, at row `p · 200 + s`, position `s` of row `p`. -/
theorem rowsFlat_apply {α : Type} (x : S64x200x128.Idx → α) (hc : S64x200x128.ShapeCasts S12800x128)
    (p : Fin 64) (s : Fin 200) (k : Fin 128) :
    shapeCast S12800x128 x hc (ix2 (⟨p.val * 200 + s.val, rows_lt p s⟩ : Fin 12800) k) = x (ix3 p s k) :=
  flatten_apply x hc p s k (rows_lt p s)

/-! ## The reductions of the body

Each reduction of the body starts from a fixed accumulator word: the zero word for a sum, the word of −∞ for a maximum.
The readings are stated for those words. -/

/-- The body's row sum: an add-reduction of a `[64, 200]` array from the zero word along the positions. -/
theorem rowSum_at (src : FVec Ideal S64x200 .f32) (h : S64x200.Reduces [1] S64) (p : Fin 64) :
    multiReduction (F := Ideal) .add [1] S64 src 0x00000000#32 h (.inl rfl) rfl (ix1 p) = ∑ s : Fin 200, src (ix2 p s) :=
  LibRow2.rowSum_apply src _ h _ _ p

/-- The body's row maximum: a maximum-reduction from the word of −∞, the bottom of the extended reals. -/
theorem rowMax_at (src : FVec Ideal S64x200 .f32) (h : S64x200.Reduces [1] S64) (p : Fin 64) :
    multiReduction (F := Ideal) .maximumf [1] S64 src 0xFF800000#32 h (.inl rfl) rfl (ix1 p)
      = (Finset.univ : Finset (Fin 200)).fold max (⊥ : EReal) (fun s => src (ix2 p s)) := by
  rw [← LibRow2.ofBits_neg_inf_f32]
  exact LibRow2.rowMax_apply src _ h _ _ p

/-- The body's lane sum: an add-reduction of a `[64, 200, 128]` array from the zero word along the lanes. -/
theorem laneSum_at (src : FVec Ideal S64x200x128 .f32) (h : S64x200x128.Reduces [2] S64x200) (p : Fin 64) (s : Fin 200) :
    multiReduction (F := Ideal) .add [2] S64x200 src 0x00000000#32 h (.inl rfl) rfl (ix2 p s) = ∑ k : Fin 128, src (ix3 p s k) :=
  laneSum_apply src _ h _ _ p s

/-! ## The stages of the body, each over arbitrary operands -/

/-- The memory block's share of the pre-activation: the block narrowed, cast to `[12800, 128]`, multiplied by the narrowed
    first weight matrix into zeros and cast back reads, at `(p, s, h)`, `∑ k, x (p, s, k) · u (k, h)`. -/
theorem lin1_at (x : FVec Ideal S64x200x128 .f32) (u : FVec Ideal S128x128 .f32) (hb : FTy.bits .bf16 < FTy.bits .f32)
    (hc₁ : S64x200x128.ShapeCasts S12800x128) (hc₂ : S128x128.ShapeCasts S128x128) (hc₃ : S12800x128.ShapeCasts S64x200x128)
    (p : Fin 64) (s : Fin 200) (h : Fin 128) :
    shapeCast S64x200x128
        (matmul dot_S12800x128_S128x128_S12800x128_1_0_0_1_n_n none (shapeCast S12800x128 (truncf .bf16 x hb) hc₁)
          (truncf .bf16 (shapeCast S128x128 u hc₂) hb) (constant S12800x128 .f32 0x00000000#32)) hc₃ (ix3 p s h)
      = ∑ k : Fin 128, x (ix3 p s k) * u (ix2 k h) := by
  rw [rowsBack_apply, mm1_apply]
  refine Finset.sum_congr rfl fun k _ => ?_
  rw [rowsFlat_apply, truncf_apply, truncf_apply, sameCast_apply]

/-- The last state's share: the narrowed state multiplied by the narrowed second weight matrix into zeros, cast to
    `[64, 1, 128]` and laid along the positions reads, at `(p, s, h)`, `∑ k, l (p, k) · w (k, h)`. -/
theorem lin2_at (l : FVec Ideal S64x128 .f32) (w : FVec Ideal S128x128 .f32) (hb : FTy.bits .bf16 < FTy.bits .f32)
    (hc₁ : S128x128.ShapeCasts S128x128) (hc₂ : S64x128.ShapeCasts S64x1x128) (hb₂ : S64x1x128.Broadcasts S64x200x128)
    (p : Fin 64) (s : Fin 200) (h : Fin 128) :
    broadcastTo S64x200x128
        (shapeCast S64x1x128
          (matmul dot_S64x128_S128x128_S64x128_1_0_0_1_n_n none (truncf .bf16 l hb)
            (truncf .bf16 (shapeCast S128x128 w hc₁) hb) (constant S64x128 .f32 0x00000000#32)) hc₂) hb₂ (ix3 p s h)
      = ∑ k : Fin 128, l (ix2 p k) * w (ix2 k h) := by
  rw [midBroadcast_apply, midUnit_apply, mm2_apply]
  refine Finset.sum_congr rfl fun k _ => ?_
  rw [truncf_apply, truncf_apply, sameCast_apply]

/-- The readout vector cast to `[128]`, then to `[1, 1, 128]`, and laid along rows and positions reads, at `(p, s, h)`,
    its entry `(0, h)`. -/
theorem readout_at {α : Type} (v : S1x128.Idx → α) (hc₁ : S1x128.ShapeCasts S128) (hc₂ : S128.ShapeCasts S1x1x128)
    (hb : S1x1x128.Broadcasts S64x200x128) (p : Fin 64) (s : Fin 200) (h : Fin 128) :
    broadcastTo S64x200x128 (shapeCast S1x1x128 (shapeCast S128 v hc₁) hc₂) hb (ix3 p s h) = v (ix2 (0 : Fin 1) h) := by
  rw [laneBroadcast_apply, twoUnits_apply, dropRow_apply]

/-- The unmasked score: the lane sum of `tanh` of the pre-activation against the readout array, plus the bias laid
    everywhere. -/
theorem raw_at (pre ro : FVec Ideal S64x200x128 .f32) (β : FVec Ideal S1 .f32) (hr : S64x200x128.Reduces [2] S64x200)
    (hc : S1.ShapeCasts S1x1) (hb : S1x1.Broadcasts S64x200) (p : Fin 64) (s : Fin 200) :
    addf (multiReduction (F := Ideal) .add [2] S64x200 (mulf (tanh pre) ro) 0x00000000#32 hr (.inl rfl) rfl)
        (broadcastTo S64x200 (shapeCast S1x1 β hc) hb) (ix2 p s)
      = (∑ h : Fin 128, Ideal.tanh (pre (ix3 p s h)) * ro (ix3 p s h)) + β (ix1 (0 : Fin 1)) := by
  rw [addf_apply, scalarFill_apply, laneSum_at]
  rfl

/-- The masked score: the fill value where the flag differs from zero, the unmasked score elsewhere. -/
theorem score_at (flags rawA : FVec Ideal S64x200 .f32) (hc : S64x200.ShapeCasts S64x200) (p : Fin 64) (s : Fin 200) :
    select (cmpf .one (shapeCast S64x200 flags hc) (broadcast S64x200 (Scalar.ofBits (F := Ideal) .f32 0x00000000#32)))
        (broadcast S64x200 (Scalar.ofBits (F := Ideal) .f32 0xCE6E6B28#32)) rawA (ix2 p s)
      = if Ideal.cmp .one (flags (ix2 p s)) (Ideal.ofBits .f32 0x00000000#32) = 1 then Cert.Spec.fill else rawA (ix2 p s) := by
  rw [select_apply, cmpf_apply, sameCast_apply, broadcast_apply, broadcast_apply]
  rfl

/-- The softmax of a score array along the positions: subtract the row's maximum, exponentiate, divide by the row's
    sum. -/
theorem tail_at (sc : FVec Ideal S64x200 .f32) (hr : S64x200.Reduces [1] S64) (hc : S64.ShapeCasts S64x1)
    (hb : S64x1.Broadcasts S64x200) (p : Fin 64) (q : Fin 200) :
    k0_pay1 (F := Ideal)
        (exp (subf sc (broadcastTo S64x200
          (shapeCast S64x1 (multiReduction (F := Ideal) .maximumf [1] S64 sc 0xFF800000#32 hr (.inl rfl) rfl) hc) hb))) (ix2 p q)
      = Ideal.div (Ideal.exp (sc (ix2 p q) - (Finset.univ : Finset (Fin 200)).fold max (⊥ : EReal) (fun s => sc (ix2 p s))))
          (∑ s' : Fin 200, Ideal.exp (sc (ix2 p s') - (Finset.univ : Finset (Fin 200)).fold max (⊥ : EReal) (fun s => sc (ix2 p s)))) := by
  dsimp only [k0_pay1]
  rw [divf_apply, LibColumn.column_of_vector_apply, rowSum_at, exp_apply, subf_apply, LibColumn.column_of_vector_apply, rowMax_at]
  refine congrArg _ (Finset.sum_congr rfl fun s' _ => ?_)
  rw [exp_apply, subf_apply, LibColumn.column_of_vector_apply, rowMax_at]

/-- The softmax depends on the score array only through row `p`. -/
theorem softmax_congr (sc : S64x200.Idx → EReal) (score : Fin 200 → EReal) (p : Fin 64) (q : Fin 200)
    (h : ∀ s, sc (ix2 p s) = score s) :
    Ideal.div (Ideal.exp (sc (ix2 p q) - (Finset.univ : Finset (Fin 200)).fold max (⊥ : EReal) (fun s => sc (ix2 p s))))
        (∑ s' : Fin 200, Ideal.exp (sc (ix2 p s') - (Finset.univ : Finset (Fin 200)).fold max (⊥ : EReal) (fun s => sc (ix2 p s))))
      = Ideal.div (Ideal.exp (score q - (Finset.univ : Finset (Fin 200)).fold max (⊥ : EReal) score))
          (∑ s' : Fin 200, Ideal.exp (score s' - (Finset.univ : Finset (Fin 200)).fold max (⊥ : EReal) score)) := by
  have e : (fun s => sc (ix2 p s)) = score := funext h
  rw [e, h q]
  refine congrArg _ (Finset.sum_congr rfl fun s' _ => ?_)
  rw [h s']

/-! ## The body at one entry -/

/-- THE KERNEL BODY'S VALUE AT ENTRY `(p, q)`: the attention weight of position `q` of row `p`. -/
theorem pay_apply (v0 : Vec Ideal S64x200x128 .f32) (v3 : Vec Ideal S128x128 .f32) (v8 : Vec Ideal S64x128 .f32)
    (v10 : Vec Ideal S128x128 .f32) (v18 : Vec Ideal S1x128 .f32) (v24 : Vec Ideal S1 .f32) (v28 : Vec Ideal S64x200 .f32)
    (p : Fin 64) (q : Fin 200) :
    k0_pay1 (F := Ideal) (k0_pay2 (F := Ideal) v0 v3 v8 v10 v18 v24 v28) (ix2 p q)
      = Cert.Spec.attRow (fun s k => v0 (ix3 p s k)) (fun k => v8 (ix2 p k))
          (fun s => Ideal.cmp .one (v28 (ix2 p s)) (Ideal.ofBits .f32 0x00000000#32))
          (fun k h => v3 (ix2 k h)) (fun k h => v10 (ix2 k h)) (fun h => v18 (ix2 0 h)) (v24 (ix1 0)) q := by
  dsimp only [k0_pay2]
  refine (tail_at _ _ _ _ p q).trans ?_
  refine (softmax_congr _ (Cert.Spec.score (fun s k => v0 (ix3 p s k)) (fun k => v8 (ix2 p k))
    (fun s => Ideal.cmp .one (v28 (ix2 p s)) (Ideal.ofBits .f32 0x00000000#32))
    (fun k h => v3 (ix2 k h)) (fun k h => v10 (ix2 k h)) (fun h => v18 (ix2 0 h)) (v24 (ix1 0))) p q fun s => ?_).trans rfl
  rw [score_at, raw_at]
  unfold Cert.Spec.score Cert.Spec.raw
  refine if_congr Iff.rfl rfl (congrArg (· + v24 (ix1 0)) (Finset.sum_congr rfl fun h _ => ?_))
  rw [addf_apply, lin1_at, lin2_at, readout_at]
  rfl

end Cert.KernelRow

end
-- ==== Proof.KernelArray.lean ====
/-
  The attention array the kernel's region leaves, as ONE function of the argument arrays.

  The region runs over 16 grid points; point `t` stages rows `64·t … 64·t + 63` of the memory, of the last state and of
  the float mask, and the two weight matrices, the readout row and the bias whole; it writes back rows
  `64·t … 64·t + 63` of the `[1024, 200]` result.  Entry `(p, q)` of what it writes is the attention weight of
  position `q` of batch row `64·t + p` — a function of that batch row's data alone —, the 16 blocks tile the result,
  so the result array is `fun (b, s) => attRow (row b's data) s`.

  Before the region the host lines make the float mask (the flags converted, 0 or 1), and the two weight matrices
  transposed; the flag test `mask ≠ 0` on a converted flag is the flag, and entry `(k, h)` of a transpose is entry
  `(h, k)`.
-/
import proofs.«404053_j12146167513170_2_alg».proof.Proof.Gen.KernelIdeal.Frame
import proofs.«404053_j12146167513170_2_alg».proof.Proof.Spec
import Idealize.ShloMosaic.Lib.Pipeline.Value
import Idealize.ShloMosaic.Lib.ValueIdx
import Idealize.ShloMosaic.Lib.ValueLayout
import Idealize.ShloMosaic.Lib.StableHlo.Run
import Idealize.ShloMosaic.PureOps.Ideal
import Idealize.ShloMosaic.PureOps.Ideal.Laws

noncomputable section

namespace Cert.KernelArray

open Cert.KernelIdeal Cert.KernelIdeal.Gen Idealize.ShloMosaic Idealize.ShloMosaic.TcCoe Idealize.SL.Sem
open Idealize.ShloMosaic.ValueIdx Idealize.ShloMosaic.StableHlo
open Idealize.ShloMosaic.Pipeline (Dat)

variable (m : (ℓ : Loc nD τ sig) → Buf (Elt Ideal) ℓ)

/-! ## The arrays the region finds, at their literal types -/

abbrev xArr (c : Dev nD) : S1024x200x128.Idx → EReal := V m c main_arg0
abbrev lArr (c : Dev nD) : S1024x128.Idx → EReal := V m c main_arg1
abbrev fArr (c : Dev nD) : S1024x200.Idx → EReal := V m c main_v0
abbrev uArr (c : Dev nD) : S128x128.Idx → EReal := V m c main_v1
abbrev wArr (c : Dev nD) : S128x128.Idx → EReal := V m c main_v2
abbrev vArr (c : Dev nD) : S1x128.Idx → EReal := V m c main_arg6
abbrev bArr (c : Dev nD) : S1.Idx → EReal := V m c main_arg7

/- Window by window, the region stages: the memory (0), the last state (1), the float mask (2), the two transposed
   weight matrices (3, 4), the readout row (5), the bias (6); window 7 is the result. -/

/-- The float mask the region finds is the flags converted. -/
theorem fArr_eq (c : Dev nD) :
    fArr m c = (uitofp (F := Ideal) .f32 (m ((c : Thread nD τ).loc main_arg3) : IVec S1024x200 1) : FVec Ideal S1024x200 .f32) := by
  show StableHlo.after hostOps0 (fun b => m (c, b)) (Proc.devRef .tc main_v0) = _
  after_results

/-- The first weight matrix the region finds is the argument transposed. -/
theorem uArr_eq (c : Dev nD) :
    uArr m c = transpose S128x128 [1, 0] (m ((c : Thread nD τ).loc main_arg4) : FVec Ideal S128x128 .f32)
      transposes_S128x128_S128x128_1_0 := by
  show StableHlo.after hostOps0 (fun b => m (c, b)) (Proc.devRef .tc main_v1) = _
  after_results

/-- The second weight matrix the region finds is the argument transposed. -/
theorem wArr_eq (c : Dev nD) :
    wArr m c = transpose S128x128 [1, 0] (m ((c : Thread nD τ).loc main_arg5) : FVec Ideal S128x128 .f32)
      transposes_S128x128_S128x128_1_0 := by
  show StableHlo.after hostOps0 (fun b => m (c, b)) (Proc.devRef .tc main_v2) = _
  after_results

/-! ## Which rows a grid point stages -/

/-- The printed index maps, decided once over the 16 grid points: the three batched inputs and the output are at block
    `t` along the batch axis and block 0 along the others; the weights, the readout row and the bias at block 0. -/
theorem idx_facts : ∀ t : Fin cfg0.N,
    win0_0.index t (0 : Fin 3) = t.val ∧ win0_0.index t (1 : Fin 3) = 0 ∧ win0_0.index t (2 : Fin 3) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 1) = 0
    ∧ win0_7.index t (0 : Fin 2) = t.val ∧ win0_7.index t (1 : Fin 2) = 0 :=
  (by decide +kernel : ∀ t : Fin grid0.N, _)

theorem t_lt (t : Fin cfg0.N) : t.val < 16 := Nat.lt_of_lt_of_eq t.isLt N_0

/-- Batch row `64·t + p`: row `p` of what point `t` stages. -/
def row (t : Fin cfg0.N) (p : Fin 64) : Fin 1024 := ⟨64 * t.val + p.val, by have := t_lt t; have := p.isLt; omega⟩

/-! ## The staged blocks read at an entry -/

theorem blk_x (c : Dev nD) (t : Fin cfg0.N) (p : Fin 64) (s : Fin 200) (k : Fin 128) :
    iblk m c 0 t (ix3 p s k) = xArr m c (ix3 (row t p) s k) := by
  obtain ⟨e0, e1, e2, -⟩ := idx_facts t
  show V m c main_arg0 (((cfg0.win 0).blk t).view.emb (ix3 p s k)) = V m c main_arg0 (ix3 (row t p) s k)
  refine congrArg (V m c main_arg0) (funext fun a => Fin.ext ?_)
  match a with
  | ⟨0, _⟩ => show win0_0.index t (0 : Fin 3) * 64 + 1 * p.val = 64 * t.val + p.val; omega
  | ⟨1, _⟩ => show win0_0.index t (1 : Fin 3) * 200 + 1 * s.val = s.val; omega
  | ⟨2, _⟩ => show win0_0.index t (2 : Fin 3) * 128 + 1 * k.val = k.val; omega

theorem blk_l (c : Dev nD) (t : Fin cfg0.N) (p : Fin 64) (k : Fin 128) :
    iblk m c 1 t (ix2 p k) = lArr m c (ix2 (row t p) k) := by
  obtain ⟨-, -, -, e0, e1, -⟩ := idx_facts t
  show V m c main_arg1 (((cfg0.win 1).blk t).view.emb (ix2 p k)) = V m c main_arg1 (ix2 (row t p) k)
  refine congrArg (V m c main_arg1) (funext fun a => Fin.ext ?_)
  match a with
  | ⟨0, _⟩ => show win0_1.index t (0 : Fin 2) * 64 + 1 * p.val = 64 * t.val + p.val; omega
  | ⟨1, _⟩ => show win0_1.index t (1 : Fin 2) * 128 + 1 * k.val = k.val; omega

theorem blk_f (c : Dev nD) (t : Fin cfg0.N) (p : Fin 64) (s : Fin 200) :
    iblk m c 2 t (ix2 p s) = fArr m c (ix2 (row t p) s) := by
  obtain ⟨-, -, -, -, -, e0, e1, -⟩ := idx_facts t
  show V m c main_v0 (((cfg0.win 2).blk t).view.emb (ix2 p s)) = V m c main_v0 (ix2 (row t p) s)
  refine congrArg (V m c main_v0) (funext fun a => Fin.ext ?_)
  match a with
  | ⟨0, _⟩ => show win0_2.index t (0 : Fin 2) * 64 + 1 * p.val = 64 * t.val + p.val; omega
  | ⟨1, _⟩ => show win0_2.index t (1 : Fin 2) * 200 + 1 * s.val = s.val; omega

theorem blk_u (c : Dev nD) (t : Fin cfg0.N) (k h : Fin 128) : iblk m c 3 t (ix2 k h) = uArr m c (ix2 k h) := by
  obtain ⟨-, -, -, -, -, -, -, e0, e1, -⟩ := idx_facts t
  show V m c main_v1 (((cfg0.win 3).blk t).view.emb (ix2 k h)) = V m c main_v1 (ix2 k h)
  refine congrArg (V m c main_v1) (funext fun a => Fin.ext ?_)
  match a with
  | ⟨0, _⟩ => show win0_3.index t (0 : Fin 2) * 128 + 1 * k.val = k.val; omega
  | ⟨1, _⟩ => show win0_3.index t (1 : Fin 2) * 128 + 1 * h.val = h.val; omega

theorem blk_w (c : Dev nD) (t : Fin cfg0.N) (k h : Fin 128) : iblk m c 4 t (ix2 k h) = wArr m c (ix2 k h) := by
  obtain ⟨-, -, -, -, -, -, -, -, -, e0, e1, -⟩ := idx_facts t
  show V m c main_v2 (((cfg0.win 4).blk t).view.emb (ix2 k h)) = V m c main_v2 (ix2 k h)
  refine congrArg (V m c main_v2) (funext fun a => Fin.ext ?_)
  match a with
  | ⟨0, _⟩ => show win0_4.index t (0 : Fin 2) * 128 + 1 * k.val = k.val; omega
  | ⟨1, _⟩ => show win0_4.index t (1 : Fin 2) * 128 + 1 * h.val = h.val; omega

theorem blk_v (c : Dev nD) (t : Fin cfg0.N) (h : Fin 128) :
    iblk m c 5 t (ix2 (0 : Fin 1) h) = vArr m c (ix2 (0 : Fin 1) h) := by
  obtain ⟨-, -, -, -, -, -, -, -, -, -, -, e0, e1, -⟩ := idx_facts t
  show V m c main_arg6 (((cfg0.win 5).blk t).view.emb (ix2 (0 : Fin 1) h)) = V m c main_arg6 (ix2 (0 : Fin 1) h)
  refine congrArg (V m c main_arg6) (funext fun a => Fin.ext ?_)
  match a with
  | ⟨0, _⟩ => show win0_5.index t (0 : Fin 2) * 1 + 1 * 0 = 0; omega
  | ⟨1, _⟩ => show win0_5.index t (1 : Fin 2) * 128 + 1 * h.val = h.val; omega

theorem blk_b (c : Dev nD) (t : Fin cfg0.N) : iblk m c 6 t (ix1 (0 : Fin 1)) = bArr m c (ix1 (0 : Fin 1)) := by
  obtain ⟨-, -, -, -, -, -, -, -, -, -, -, -, -, e0, -⟩ := idx_facts t
  show V m c main_arg7 (((cfg0.win 6).blk t).view.emb (ix1 (0 : Fin 1))) = V m c main_arg7 (ix1 (0 : Fin 1))
  refine congrArg (V m c main_arg7) (funext fun a => Fin.ext ?_)
  match a with
  | ⟨0, _⟩ => show win0_6.index t (0 : Fin 1) * 1 + 1 * 0 = 0; omega

/-! ## What a grid point writes back -/

/-- `attRow` of pointwise equal data. -/
theorem attRow_congr {xr xr' : Fin 200 → Fin 128 → EReal} {lr lr' : Fin 128 → EReal} {sel sel' : Fin 200 → BitVec 1}
    {U U' W W' : Fin 128 → Fin 128 → EReal} {v v' : Fin 128 → EReal} {β β' : EReal}
    (h1 : ∀ s k, xr s k = xr' s k) (h2 : ∀ k, lr k = lr' k) (h3 : ∀ s, sel s = sel' s)
    (h4 : ∀ k h, U k h = U' k h) (h5 : ∀ k h, W k h = W' k h) (h6 : ∀ h, v h = v' h) (h7 : β = β') (q : Fin 200) :
    Cert.Spec.attRow xr lr sel U W v β q = Cert.Spec.attRow xr' lr' sel' U' W' v' β' q := by
  obtain rfl : xr = xr' := funext fun s => funext fun k => h1 s k
  obtain rfl : lr = lr' := funext h2
  obtain rfl : sel = sel' := funext h3
  obtain rfl : U = U' := funext fun k => funext fun h => h4 k h
  obtain rfl : W = W' := funext fun k => funext fun h => h5 k h
  obtain rfl : v = v' := funext h6
  subst h7
  rfl

/-- The attention array as a function of the arrays the region finds: entry `(b, s)` is the attention weight of
    position `s` of batch row `b`; a position is flagged where the float mask is not zero. -/
def attOf (x : S1024x200x128.Idx → EReal) (l : S1024x128.Idx → EReal) (f : S1024x200.Idx → EReal)
    (u w : S128x128.Idx → EReal) (v : S1x128.Idx → EReal) (β : S1.Idx → EReal) : S1024x200.Idx → EReal :=
  fun i => Cert.Spec.attRow (fun s k => x (ix3 (⟨(i 0).val, (i 0).isLt⟩ : Fin 1024) s k))
    (fun k => l (ix2 (⟨(i 0).val, (i 0).isLt⟩ : Fin 1024) k))
    (fun s => Ideal.cmp .one (f (ix2 (⟨(i 0).val, (i 0).isLt⟩ : Fin 1024) s)) (Ideal.ofBits .f32 0x00000000#32))
    (fun k h => u (ix2 k h)) (fun k h => w (ix2 k h)) (fun h => v (ix2 (0 : Fin 1) h)) (β (ix1 (0 : Fin 1)))
    (⟨(i 1).val, (i 1).isLt⟩ : Fin 200)

theorem hz3 : (![0, 0, 0] : Fin 3 → Nat) = fun _ => 0 := funext fun a => by fin_cases a <;> rfl
theorem hz2 : (![0, 0] : Fin 2 → Nat) = fun _ => 0 := funext fun a => by fin_cases a <;> rfl
theorem hz1 : (![0] : Fin 1 → Nat) = fun _ => 0 := funext fun a => by fin_cases a <;> rfl

section WriteBack

-- The body's arithmetic at one entry (proved in its own module): the attention weight of the staged row.
variable (hpay : ∀ (v0 : Vec Ideal S64x200x128 .f32) (v3 : Vec Ideal S128x128 .f32) (v8 : Vec Ideal S64x128 .f32)
    (v10 : Vec Ideal S128x128 .f32) (v18 : Vec Ideal S1x128 .f32) (v24 : Vec Ideal S1 .f32) (v28 : Vec Ideal S64x200 .f32)
    (p : Fin 64) (q : Fin 200),
    k0_pay1 (F := Ideal) (k0_pay2 (F := Ideal) v0 v3 v8 v10 v18 v24 v28) (ix2 p q)
      = Cert.Spec.attRow (fun s k => v0 (ix3 p s k)) (fun k => v8 (ix2 p k))
          (fun s => Ideal.cmp .one (v28 (ix2 p s)) (Ideal.ofBits .f32 0x00000000#32))
          (fun k h => v3 (ix2 k h)) (fun k h => v10 (ix2 k h)) (fun h => v18 (ix2 0 h)) (v24 (ix1 0)) q)

include hpay in
/-- WHAT POINT `t` WRITES BACK is block `t` of the attention array. -/
theorem flushed_eq (c : Dev nD) (t : Fin cfg0.N) :
    (dats m 0 c).flushed 7 t = ((cfg0.win 7).blk t).view.read (Elt Ideal)
      (attOf (xArr m c) (lArr m c) (fArr m c) (uArr m c) (wArr m c) (vArr m c) (bArr m c)) := by
  show (cfg0.win 7).cut (grid0.coords t) ((dats m 0 c).after 7 t) = _
  rw [after0_7]
  unfold out0_7
  rw [View.canon_unit_zero hz2]
  simp only [View.ld_unit_zero (S := S64x200x128) hz3, View.ld_unit_zero (S := S128x128) hz2,
    View.ld_unit_zero (S := S64x128) hz2, View.ld_unit_zero (S := S1x128) hz2, View.ld_unit_zero (S := S1) hz1,
    View.ld_unit_zero (S := S64x200) hz2]
  funext j
  obtain ⟨p, q, rfl⟩ : ∃ (p : Fin 64) (q : Fin 200), j = ix2 p q := ⟨j 0, j 1, eq_ix2 j⟩
  obtain ⟨-, -, -, -, -, -, -, -, -, -, -, -, -, -, e0, e1⟩ := idx_facts t
  refine (hpay (iblk m c 0 t) (iblk m c 3 t) (iblk m c 1 t) (iblk m c 4 t) (iblk m c 5 t) (iblk m c 6 t)
    (iblk m c 2 t) p q).trans ?_
  show _ = attOf (xArr m c) (lArr m c) (fArr m c) (uArr m c) (wArr m c) (vArr m c) (bArr m c)
    (((cfg0.win 7).blk t).view.emb (ix2 p q))
  have hr : (⟨((((cfg0.win 7).blk t).view.emb (ix2 p q)) 0).val, ((((cfg0.win 7).blk t).view.emb (ix2 p q)) 0).isLt⟩ : Fin 1024)
      = row t p := Fin.ext (by
    show win0_7.index t (0 : Fin 2) * 64 + 1 * p.val = 64 * t.val + p.val; omega)
  have hq : (⟨((((cfg0.win 7).blk t).view.emb (ix2 p q)) 1).val, ((((cfg0.win 7).blk t).view.emb (ix2 p q)) 1).isLt⟩ : Fin 200)
      = q := Fin.ext (by
    show win0_7.index t (1 : Fin 2) * 200 + 1 * q.val = q.val; omega)
  unfold attOf
  rw [hr, hq]
  exact attRow_congr (fun s k => blk_x m c t p s k) (fun k => blk_l m c t p k)
    (fun s => congrArg (fun z => Ideal.cmp .one z (Ideal.ofBits .f32 0x00000000#32)) (blk_f m c t p s))
    (fun k h => blk_u m c t k h) (fun k h => blk_w m c t k h) (fun h => blk_v m c t h) (blk_b m c t) q

/-- An index of the result is in point `t`'s block iff each coordinate is in the block's range on its axis. -/
theorem mem_blk (t : Fin cfg0.N) (i : S1024x200.Idx) :
    i ∈ ((cfg0.win 7).blk t).view.set ↔ ∀ a : Fin 2, win0_7.index t a * S64x200.size a ≤ (i a).val
      ∧ (i a).val < win0_7.index t a * S64x200.size a + S64x200.size a := by
  show i ∈ ((View.whole main_v3).slice (win0_7.rect t)).set ↔ _
  rw [View.set_slice_whole, Rect.mem_set_unit]
  exact Iff.rfl

/-- The 16 blocks tile the result: row `r` is in the block of point `r / 64`. -/
theorem cover (i : S1024x200.Idx) :
    ∃ t : Fin cfg0.N, (cfg0.win 7).flush t = true ∧ i ∈ ((cfg0.win 7).blk t).view.set := by
  have hi0 : (i 0).val < 1024 := (i 0).isLt
  have hi1 : (i 1).val < 200 := (i 1).isLt
  have hN : (i 0).val / 64 < cfg0.N := by rw [show cfg0.N = 16 from N_0]; omega
  refine ⟨⟨(i 0).val / 64, hN⟩, flush0_7 _, ?_⟩
  rw [mem_blk]
  obtain ⟨-, -, -, -, -, -, -, -, -, -, -, -, -, -, e0, e1⟩ := idx_facts ⟨(i 0).val / 64, hN⟩
  intro a
  match a with
  | ⟨0, _⟩ =>
    show win0_7.index ⟨(i 0).val / 64, hN⟩ (0 : Fin 2) * 64 ≤ (i 0).val
      ∧ (i 0).val < win0_7.index ⟨(i 0).val / 64, hN⟩ (0 : Fin 2) * 64 + 64
    rw [e0]; show (i 0).val / 64 * 64 ≤ (i 0).val ∧ (i 0).val < (i 0).val / 64 * 64 + 64; omega
  | ⟨1, _⟩ =>
    show win0_7.index ⟨(i 0).val / 64, hN⟩ (1 : Fin 2) * 200 ≤ (i 1).val
      ∧ (i 1).val < win0_7.index ⟨(i 0).val / 64, hN⟩ (1 : Fin 2) * 200 + 200
    rw [e1]; omega

include hpay in
/-- THE ATTENTION ARRAY after the region. -/
theorem final (c : Dev nD) : (dats m 0 c).arrAt 7 cfg0.N
    = attOf (xArr m c) (lArr m c) (fArr m c) (uArr m c) (wArr m c) (vArr m c) (bArr m c) :=
  (dats m 0 c).arrAt_eq_of_cover 7 _ (fun t _ => flushed_eq m hpay c t) cover

end WriteBack

/-! ## The same array over the argument arrays -/

/-- A flag converted to a float (0 or 1) differs from zero exactly when the flag is set. -/
theorem cmp_one_uitofp (w : BitVec 1) :
    Ideal.cmp .one (((w.toNat : ℝ) : EReal)) (Ideal.ofBits .f32 0x00000000#32) = w := by
  rw [Ideal.ofBits_zero_f32]
  have hw : w = 0#1 ∨ w = 1#1 := by revert w; decide
  rcases hw with rfl | rfl
  · simp [Ideal.cmp]
  · simp [Ideal.cmp]

/-- The attention array as a function of the ARGUMENT arrays: entry `(b, s)` is the attention weight of position `s`
    of batch row `b`, the weight matrices entering with entry `(h, k)` multiplying input coordinate `k` into hidden
    coordinate `h`. -/
def attArg (x : S1024x200x128.Idx → EReal) (l : S1024x128.Idx → EReal) (flag : S1024x200.Idx → BitVec 1)
    (U W : S128x128.Idx → EReal) (v : S1x128.Idx → EReal) (β : S1.Idx → EReal) : S1024x200.Idx → EReal :=
  fun i => Cert.Spec.attRow (fun s k => x (ix3 (⟨(i 0).val, (i 0).isLt⟩ : Fin 1024) s k))
    (fun k => l (ix2 (⟨(i 0).val, (i 0).isLt⟩ : Fin 1024) k))
    (fun s => flag (ix2 (⟨(i 0).val, (i 0).isLt⟩ : Fin 1024) s))
    (fun k h => U (ix2 h k)) (fun k h => W (ix2 h k)) (fun h => v (ix2 (0 : Fin 1) h)) (β (ix1 (0 : Fin 1)))
    (⟨(i 1).val, (i 1).isLt⟩ : Fin 200)

/-- What the region finds, in terms of the arguments: the memory, the last state, the readout row and the bias as
    launched; the float mask tested against zero is the flag; the transposed weights read back transposed. -/
theorem attOf_args (c : Dev nD) :
    attOf (xArr m c) (lArr m c) (fArr m c) (uArr m c) (wArr m c) (vArr m c) (bArr m c)
      = attArg (m ((c : Thread nD τ).loc main_arg0)) (m ((c : Thread nD τ).loc main_arg1))
          (m ((c : Thread nD τ).loc main_arg3)) (m ((c : Thread nD τ).loc main_arg4))
          (m ((c : Thread nD τ).loc main_arg5)) (m ((c : Thread nD τ).loc main_arg6))
          (m ((c : Thread nD τ).loc main_arg7)) := by
  funext i
  unfold attOf attArg
  refine attRow_congr (fun s k => congrFun (V_main_arg0 m c) _) (fun k => congrFun (V_main_arg1 m c) _)
    (fun s => ?_) (fun k h => ?_) (fun k h => ?_) (fun h => congrFun (V_main_arg6 m c) _)
    (congrFun (V_main_arg7 m c) _) _
  · rw [fArr_eq]; exact cmp_one_uitofp _
  · rw [uArr_eq]; exact transpose_ix2_apply _ _ k h
  · rw [wArr_eq]; exact transpose_ix2_apply _ _ k h

end Cert.KernelArray

end
-- ==== Proof.KernelTail.lean ====
/-
  The host lines that follow the kernel's one region, as ONE function of the item ids and of the attention array the
  region leaves.

  Position `(b, s)` of the `[1024, 200]` arrays is flattened row-major to `k = 200·b + s`; its flat target is the
  32-bit word `100000·b + item b s` (`flatIds`), moved up by `1024·100000` where that word is negative
  (`wrappedIds`); the attention entries, flattened the same way, are then added into a zero vector of length
  `1024·100000` at those targets, and the vector is read back as `[1024, 100000]`.
-/
import proofs.«404053_j12146167513170_2_alg».proof.Proof.Gen.KernelIdeal

noncomputable section

namespace Cert.KernelTail

open Idealize.ShloMosaic Cert.KernelIdeal Cert.KernelIdeal.Facts₀

variable {F : FTy → Type} [FloatOps F]

/-- The flat target of every position: `100000 · (row number) + item id`, in 32-bit words, flattened row-major. -/
def flatIds (item : IVec S1024x200 32) : IVec S204800 32 :=
  shapeCast S204800
    (addi
      (broadcastInDim S1024x200 ![0, 1] bcast_S1024x1_S1024x200_0_1
        (muli (broadcastInDim S1024x1 ![0] bcast_S1024_S1024x1_0 (iotaInDim S1024 32 0))
          (broadcastInDim S1024x1 ![] bcast_S_S1024x1 (constantI S_ 32 100000#32))))
      item)
    shapeCasts_S1024x200_S204800

/-- The flat targets with a negative word moved up by the vector's length. -/
def wrappedIds (item : IVec S1024x200 32) : IVec S204800 32 :=
  select (cmpi .slt (flatIds item) (broadcastInDim S204800 ![] bcast_S_S204800 (constantI S_ 32 0#32)))
    (addi (flatIds item) (broadcastInDim S204800 ![] bcast_S_S204800 (constantI S_ 32 102400000#32)))
    (flatIds item)

/-- The lines after the region: the attention entries added into a zero vector at their flat targets, read back as a
    `[1024, 100000]` array. -/
def tail (item : IVec S1024x200 32) (a : FVec F S1024x200 .f32) : FVec F S1024x100000 .f32 :=
  shapeCast S1024x100000
    (Host.scatterAdd scatter_S102400000_S204800x1_S204800_n_0_0_1
      (broadcastInDim S102400000 ![] bcast_S_S102400000 (constant S_ .f32 0x00000000#32))
      (broadcastInDim S204800x1 ![0] bcast_S204800_S204800x1_0 (wrappedIds item))
      (shapeCast S204800 a shapeCasts_S1024x200_S204800))
    shapeCasts_S102400000_S1024x100000

end Cert.KernelTail

end
-- ==== Proof.KernelRun.lean ====
/-
  The kernel's program run, with its result named.

  Every weakly fair execution of the idealized kernel's program terminates; the region leaves the attention array
  (KernelArray), the item ids are untouched by the region, and the lines after the region are the tail function of the
  two (KernelTail): so the result buffer ends at `tail (item ids) (attention array of the arguments)`, and the eight
  arguments end as launched.
-/
import proofs.«404053_j12146167513170_2_alg».proof.Proof.Gen.KernelIdeal.Frame
import proofs.«404053_j12146167513170_2_alg».proof.Proof.KernelArray
import proofs.«404053_j12146167513170_2_alg».proof.Proof.KernelTail
import Idealize.ShloMosaic.Lib.StableHlo.Run

noncomputable section

namespace Cert.KernelRun

open Cert.KernelIdeal Cert.KernelIdeal.Gen Idealize.ShloMosaic Idealize.ShloMosaic.TcCoe Idealize.SL.Sem
open Idealize.ShloMosaic.ValueIdx Idealize.ShloMosaic.StableHlo Cert.KernelArray

variable (m : (ℓ : Loc nD τ sig) → Buf (Elt Ideal) ℓ) (ρ : Dev nD → PrngReg)

/-- The result the kernel's program computes, as a function of the launched memory. -/
def result (c : Dev nD) : Buf (Elt Ideal) ((c.tc : Thread nD τ).loc main_v20) :=
  Cert.KernelTail.tail (F := Ideal) (m ((c : Thread nD τ).loc main_arg2))
    (attArg (m ((c : Thread nD τ).loc main_arg0)) (m ((c : Thread nD τ).loc main_arg1))
      (m ((c : Thread nD τ).loc main_arg3)) (m ((c : Thread nD τ).loc main_arg4))
      (m ((c : Thread nD τ).loc main_arg5)) (m ((c : Thread nD τ).loc main_arg6))
      (m ((c : Thread nD τ).loc main_arg7)))

section
-- The body's arithmetic at one entry (proved in its own module): the attention weight of the staged row.
variable (hpay : ∀ (v0 : Vec Ideal S64x200x128 .f32) (v3 : Vec Ideal S128x128 .f32) (v8 : Vec Ideal S64x128 .f32)
    (v10 : Vec Ideal S128x128 .f32) (v18 : Vec Ideal S1x128 .f32) (v24 : Vec Ideal S1 .f32) (v28 : Vec Ideal S64x200 .f32)
    (p : Fin 64) (q : Fin 200),
    k0_pay1 (F := Ideal) (k0_pay2 (F := Ideal) v0 v3 v8 v10 v18 v24 v28) (ix2 p q)
      = Cert.Spec.attRow (fun s k => v0 (ix3 p s k)) (fun k => v8 (ix2 p k))
          (fun s => Ideal.cmp .one (v28 (ix2 p s)) (Ideal.ofBits .f32 0x00000000#32))
          (fun k h => v3 (ix2 k h)) (fun k h => v10 (ix2 k h)) (fun h => v18 (ix2 0 h)) (v24 (ix1 0)) q)

include hpay in
/-- The lines after the region, run on what the region leaves, give the result. -/
theorem tail_eq (c : Dev nD) :
    Pipeline.afterTail₀ cfgs (dats m) 0 (V0 m) [hostOps1] c main_v20 = result m c := by
  have hA : Pipeline.withArrays (cfgs 0).spec c (V0 m c) (fun w => (dats m 0 c).arrAt w (cfgs 0).N)
      (Proc.devRef .tc main_v3)
      = attArg (m ((c : Thread nD τ).loc main_arg0)) (m ((c : Thread nD τ).loc main_arg1))
          (m ((c : Thread nD τ).loc main_arg3)) (m ((c : Thread nD τ).loc main_arg4))
          (m ((c : Thread nD τ).loc main_arg5)) (m ((c : Thread nD τ).loc main_arg6))
          (m ((c : Thread nD τ).loc main_arg7)) :=
    ((Pipeline.withArrays_arr spec0 launch0.win.arr_inj c _ _ 7).trans (final m hpay c)).trans (attOf_args m c)
  have hI : Pipeline.withArrays (cfgs 0).spec c (V0 m c) (fun w => (dats m 0 c).arrAt w (cfgs 0).N)
      (Proc.devRef .tc main_arg2) = m ((c : Thread nD τ).loc main_arg2) :=
    (Pipeline.withArrays_of_ne _ c (V0 m c) _ main_arg2
      (by exact (by decide : ∀ w, Pipeline.arrRef spec0 w ≠ main_arg2))).trans (V_main_arg2 m c)
  unfold Pipeline.afterTail₀
  simp only [hostOps1, List.flatten_cons, List.flatten_nil, List.append_nil, List.cons_append, List.nil_append]
  after_results_simp
  show Cert.KernelTail.tail (F := Ideal)
      (Pipeline.withArrays (cfgs 0).spec c (V0 m c) (fun w => (dats m 0 c).arrAt w (cfgs 0).N) (Proc.devRef .tc main_arg2))
      (Pipeline.withArrays (cfgs 0).spec c (V0 m c) (fun w => (dats m 0 c).arrAt w (cfgs 0).N) (Proc.devRef .tc main_v3))
    = _
  rw [hI, hA]
  rfl

include hpay in
/-- THE RUN: the result buffer ends at `result`, the arguments as launched. -/
theorem run : θ_run defs (onTc (τ := τ) (main (F := Ideal))) ⟨m, fun _ => 0, ρ⟩ (fun r => ∀ c : Dev nD,
      r.2.mem ((c.tc : Thread nD τ).loc main_v20) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c =>
    ⟨((h c).2 main_v20 (Pipeline.mem_restRefs_of main_v20 (by decide) (by decide))).trans (tail_eq m hpay c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c)),
      (((h c).2 main_arg5 (Pipeline.mem_restRefs_of main_arg5 (by decide) (by decide))).trans (W_main_arg5 m (dats m) c)),
      ((h c).1 5).trans (((dats m 0 c).arrAt_in 5 rfl _).trans ((A_eq m c 5).trans (V_main_arg6 m c))),
      ((h c).1 6).trans (((dats m 0 c).arrAt_in 6 rfl _).trans ((A_eq m c 6).trans (V_main_arg7 m c)))⟩)
    (run_main m ρ)

end

end Cert.KernelRun

end
-- ==== Proof.LibScatterRows.lean ====
/-
  Scatter-adds along the FIRST axis of the operand, and a gather of single elements of a vector, read at an index.

  ROWS. What `operand.at[idx].add(updates)` (a segment sum) lowers to for an operand `[N, C]`, a vector of `K` row indices
  and updates `[K, C]`: `stablehlo.scatter` with an `add` body and the dimension numbers update_window_dims `[1]`,
  inserted_window_dims `[0]`, scatter_dims_to_operand_dims `[0]`, index_vector_dim `1` over the indices as `[K, 1]`.
  Update element `(k, c)` lands at operand element `(idx[k, 0], c)`, the index read as a SIGNED integer and not
  clamped: an update whose row index is outside `[0, N)` is dropped. So the result at `(n, c)` is the operand there
  plus the sum of the updates `(k, c)` over the `k` whose index is `n` (`scatterAdd_rows_apply`).

  VECTOR. The same for an operand `[N]` and updates `[K]` (no window axis: update_window_dims `[]`): the result at
  `n` is the operand there plus the sum of the updates `k` whose index is `n` (`scatterAdd_vec_apply`).

  GATHER. `table[ids]` over a vector table `[N]` at start indices `[R, 1]`: the one operand axis is collapsed and
  start-indexed, there is no offset axis, and result element `r` is the table's at `idx[r, 0]` read as a signed
  integer and CLAMPED into `[0, N − 1]` (`gather_vec`).

  All three are stated for an ARBITRARY record of dimension numbers whose lists are the ones above (each hypothesis
  holds by `rfl` on a written record), every extent a variable. `rowsDims` / `vecDims` are the two scatter records
  with their conditions as a variable; `start_*` / `window_*` compute the window's start and the window coordinate
  on the operand's axes; `resultIdx?_rows` / `resultIdx?_vec` say where an update lands.
-/
import Idealize.ShloMosaic.Lib.ValueIdx

noncomputable section

open scoped BigOperators

namespace Cert.LibScatterRows

open Idealize.ShloMosaic Idealize.ShloMosaic.ValueIdx

/-! ## The row scatter-add -/

/-- The dimension numbers of a row scatter for an operand `[N, C]`, scatter indices `[K, 1]` and updates `[K, C]`,
    over any evidence `wf` of their conditions. -/
abbrev rowsDims (N C K : Nat) (wf : ScatterDims.WF ⟨2, ![N, C]⟩ ⟨2, ![K, 1]⟩ ⟨2, ![K, C]⟩ [1] [0] [0] 1) :
    ScatterDims ⟨2, ![N, C]⟩ ⟨2, ![K, 1]⟩ ⟨2, ![K, C]⟩ where
  updateWindowDims := [1]
  insertedWindowDims := [0]
  scatterDimsToOperandDims := [0]
  indexVectorDim := 1
  wf := wf

section Rows

variable {N C K w : Nat} (wf : ScatterDims.WF ⟨2, ![N, C]⟩ ⟨2, ![K, 1]⟩ ⟨2, ![K, C]⟩ [1] [0] [0] 1)

/-- On the row axis the window of update `(k, e)` starts at the `k`-th scatter index, read signed. -/
theorem start_row (idx : IVec ⟨2, ![K, 1]⟩ w) (k : Fin K) (e : Fin C) :
    (rowsDims N C K wf).start (ix2 k e) idx 0 = (idx (ix2 k ⟨0, Nat.one_pos⟩)).toInt := by
  unfold ScatterDims.start
  rw [dif_pos (show (0 : Fin 2) ∈ (rowsDims N C K wf).scatterDimsToOperandDims from List.mem_singleton.mpr rfl)]
  congr 2
  funext b; refine Fin.ext ?_
  match b with
  | ⟨0, _⟩ => rfl
  | ⟨1, _⟩ => rfl

/-- The column axis is not a scattered axis: the window starts at column 0. -/
theorem start_col (idx : IVec ⟨2, ![K, 1]⟩ w) (j : (⟨2, ![K, C]⟩ : Shape).Idx) :
    (rowsDims N C K wf).start j idx 1 = 0 := by
  unfold ScatterDims.start
  rw [dif_neg (show ¬ (1 : Fin 2) ∈ ([0] : List (Fin 2)) from by decide)]

/-- The row axis is inserted: its window coordinate is 0. -/
theorem window_row (j : (⟨2, ![K, C]⟩ : Shape).Idx) : (rowsDims N C K wf).window j 0 = 0 := by
  unfold ScatterDims.window
  have h : ¬ (0 : Fin 2) ∈ (rowsDims N C K wf).sKept := by
    show ¬ (0 : Fin 2) ∈ (List.finRange 2).filter (· ∉ ([0] : List (Fin 2)))
    decide
  rw [dif_neg h]

/-- The column axis is the updates' one window axis: the window coordinate of update `(k, e)` is `e`. -/
theorem window_col (k : Fin K) (e : Fin C) : (rowsDims N C K wf).window (ix2 k e) 1 = e.val := by
  unfold ScatterDims.window
  have h : (1 : Fin 2) ∈ (rowsDims N C K wf).sKept := by
    show (1 : Fin 2) ∈ (List.finRange 2).filter (· ∉ ([0] : List (Fin 2)))
    decide
  rw [dif_pos h]
  rfl

/-- WHERE AN UPDATE LANDS: update `(k, e)` lands at `(n, c)` exactly when the `k`-th scatter index, read signed, is
    `n` and `e = c`. -/
theorem resultIdx?_rows (idx : IVec ⟨2, ![K, 1]⟩ w) (k : Fin K) (e : Fin C) (n : Fin N) (c : Fin C) :
    (rowsDims N C K wf).resultIdx? (ix2 k e) idx = some (ix2 n c) ↔
      (idx (ix2 k ⟨0, Nat.one_pos⟩)).toInt = (n.val : Int) ∧ e = c := by
  have he : e.val < C := e.isLt
  have hn : n.val < N := n.isLt
  unfold ScatterDims.resultIdx?
  constructor
  · intro h
    split at h
    · rename_i hh
      have hf := Option.some.inj h
      have h0 := congrArg Fin.val (congrFun hf 0)
      have h1 := congrArg Fin.val (congrFun hf 1)
      have hh0 := (hh 0).1
      simp only [start_row, start_col, window_row, window_col] at h0 h1 hh0
      refine ⟨?_, Fin.ext ?_⟩
      · change ((idx (ix2 k ⟨0, Nat.one_pos⟩)).toInt + ((0 : Nat) : Int)).toNat = n.val at h0
        omega
      · change (0 + (e.val : Int)).toNat = c.val at h1
        omega
    · exact absurd h (by simp)
  · rintro ⟨hi, rfl⟩
    have hall : ∀ a : Fin 2, 0 ≤ (rowsDims N C K wf).start (ix2 k e) idx a + ((rowsDims N C K wf).window (ix2 k e) a : Int) ∧
        (rowsDims N C K wf).start (ix2 k e) idx a + ((rowsDims N C K wf).window (ix2 k e) a : Int)
          < ((⟨2, ![N, C]⟩ : Shape).size a : Int) := by
      intro a
      match a with
      | ⟨0, _⟩ =>
        rw [show (⟨0, by omega⟩ : Fin 2) = 0 from rfl, start_row, window_row, hi]
        change 0 ≤ (n.val : Int) + ((0 : Nat) : Int) ∧ (n.val : Int) + ((0 : Nat) : Int) < (N : Int)
        omega
      | ⟨1, _⟩ =>
        rw [show (⟨1, by omega⟩ : Fin 2) = 1 from rfl, start_col, window_col]
        change 0 ≤ 0 + (e.val : Int) ∧ 0 + (e.val : Int) < (C : Int)
        omega
    rw [dif_pos hall]
    congr 1
    funext a; refine Fin.ext ?_
    match a with
    | ⟨0, _⟩ =>
      show ((rowsDims N C K wf).start (ix2 k e) idx 0 + ((rowsDims N C K wf).window (ix2 k e) 0 : Int)).toNat = n.val
      rw [start_row, window_row, hi]; omega
    | ⟨1, _⟩ =>
      show ((rowsDims N C K wf).start (ix2 k e) idx 1 + ((rowsDims N C K wf).window (ix2 k e) 1 : Int)).toNat = e.val
      rw [start_col, window_col]; omega

/-- The row scatter-add over the written record, read at `(n, c)`. -/
theorem scatterAdd_rowsDims_apply (x : (⟨2, ![N, C]⟩ : Shape).Idx → EReal) (idx : IVec ⟨2, ![K, 1]⟩ w)
    (upd : (⟨2, ![K, C]⟩ : Shape).Idx → EReal) (n : Fin N) (c : Fin C) :
    Ideal.hostScatterAdd (rowsDims N C K wf) x idx upd (ix2 n c) =
      x (ix2 n c) + ∑ k : Fin K, if (idx (ix2 k ⟨0, Nat.one_pos⟩)).toInt = (n.val : Int) then upd (ix2 k c) else 0 := by
  unfold Ideal.hostScatterAdd
  congr 1
  rw [Finset.sum_filter, sum_idx2]
  refine Finset.sum_congr rfl fun k _ => ?_
  -- of the updates of row `k` only the one in column `c` can land in column `c`
  rw [Finset.sum_eq_single c]
  · by_cases h : (idx (ix2 k ⟨0, Nat.one_pos⟩)).toInt = (n.val : Int)
    · rw [if_pos h, if_pos ((resultIdx?_rows wf idx k c n c).mpr ⟨h, rfl⟩)]
    · rw [if_neg h, if_neg (fun h' => h ((resultIdx?_rows wf idx k c n c).mp h').1)]
  · intro e _ hec
    rw [if_neg (fun h' => hec ((resultIdx?_rows wf idx k e n c).mp h').2)]
  · intro h; exact absurd (Finset.mem_univ c) h

end Rows

/-- THE ROW SCATTER-ADD READ AT `(n, c)`: the operand there plus the updates of column `c` whose scatter index is `n`. -/
theorem scatterAdd_rows_apply {N C K w : Nat}
    (d : ScatterDims ⟨2, ![N, C]⟩ ⟨2, ![K, 1]⟩ ⟨2, ![K, C]⟩)
    (huw : d.updateWindowDims = [1]) (hiw : d.insertedWindowDims = [0])
    (hsd : d.scatterDimsToOperandDims = [0]) (hiv : d.indexVectorDim = 1)
    (x : (⟨2, ![N, C]⟩ : Shape).Idx → EReal) (idx : IVec ⟨2, ![K, 1]⟩ w)
    (upd : (⟨2, ![K, C]⟩ : Shape).Idx → EReal) (n : Fin N) (c : Fin C) :
    Ideal.hostScatterAdd d x idx upd (ix2 n c) =
      x (ix2 n c) + ∑ k : Fin K, if (idx (ix2 k ⟨0, Nat.one_pos⟩)).toInt = (n.val : Int) then upd (ix2 k c) else 0 := by
  obtain ⟨uw, iw, sd, iv, wf⟩ := d
  dsimp only at huw hiw hsd hiv
  subst huw hiw hsd hiv
  exact scatterAdd_rowsDims_apply wf x idx upd n c

/-! ## The vector scatter-add -/

/-- The dimension numbers of a scatter into a vector: operand `[N]`, scatter indices `[K, 1]`, updates `[K]`, over any
    evidence `wf` of their conditions. -/
abbrev vecDims (N K : Nat) (wf : ScatterDims.WF ⟨1, ![N]⟩ ⟨2, ![K, 1]⟩ ⟨1, ![K]⟩ [] [0] [0] 1) :
    ScatterDims ⟨1, ![N]⟩ ⟨2, ![K, 1]⟩ ⟨1, ![K]⟩ where
  updateWindowDims := []
  insertedWindowDims := [0]
  scatterDimsToOperandDims := [0]
  indexVectorDim := 1
  wf := wf

/-- A rank-1 index set is its one coordinate's range … -/
def idxEquiv1 {n : Nat} : (⟨1, ![n]⟩ : Shape).Idx ≃ Fin n where
  toFun i := i 0
  invFun a := ix1 a
  left_inv i := (eq_ix1 i).symm
  right_inv _ := rfl
/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

section Vec

variable {N K w : Nat} (wf : ScatterDims.WF ⟨1, ![N]⟩ ⟨2, ![K, 1]⟩ ⟨1, ![K]⟩ [] [0] [0] 1)

/-- The window of update `k` starts at the `k`-th scatter index, read signed. -/
theorem start_vec (idx : IVec ⟨2, ![K, 1]⟩ w) (k : Fin K) :
    (vecDims N K wf).start (ix1 k) idx 0 = (idx (ix2 k ⟨0, Nat.one_pos⟩)).toInt := by
  unfold ScatterDims.start
  rw [dif_pos (show (0 : Fin 1) ∈ (vecDims N K wf).scatterDimsToOperandDims from List.mem_singleton.mpr rfl)]
  congr 2
  funext b; refine Fin.ext ?_
  match b with
  | ⟨0, _⟩ => rfl
  | ⟨1, _⟩ => rfl

/-- The operand's one axis is inserted: its window coordinate is 0. -/
theorem window_vec (j : (⟨1, ![K]⟩ : Shape).Idx) : (vecDims N K wf).window j 0 = 0 := by
  unfold ScatterDims.window
  have h : ¬ (0 : Fin 1) ∈ (vecDims N K wf).sKept := by
    show ¬ (0 : Fin 1) ∈ (List.finRange 1).filter (· ∉ ([0] : List (Fin 1)))
    decide
  rw [dif_neg h]

/-- WHERE AN UPDATE LANDS: update `k` lands at `n` exactly when the `k`-th scatter index, read signed, is `n`. -/
theorem resultIdx?_vec (idx : IVec ⟨2, ![K, 1]⟩ w) (k : Fin K) (n : Fin N) :
    (vecDims N K wf).resultIdx? (ix1 k) idx = some (ix1 n) ↔
      (idx (ix2 k ⟨0, Nat.one_pos⟩)).toInt = (n.val : Int) := by
  have hn : n.val < N := n.isLt
  unfold ScatterDims.resultIdx?
  constructor
  · intro h
    split at h
    · have hf := Option.some.inj h
      have h0 := congrArg Fin.val (congrFun hf 0)
      simp only [start_vec, window_vec] at h0
      change ((idx (ix2 k ⟨0, Nat.one_pos⟩)).toInt + ((0 : Nat) : Int)).toNat = n.val at h0
      rename_i hh
      have hh0 := (hh 0).1
      simp only [start_vec, window_vec] at hh0
      omega
    · exact absurd h (by simp)
  · intro hi
    have hall : ∀ a : Fin 1, 0 ≤ (vecDims N K wf).start (ix1 k) idx a + ((vecDims N K wf).window (ix1 k) a : Int) ∧
        (vecDims N K wf).start (ix1 k) idx a + ((vecDims N K wf).window (ix1 k) a : Int)
          < ((⟨1, ![N]⟩ : Shape).size a : Int) := by
      intro a
      match a with
      | ⟨0, _⟩ =>
        rw [show (⟨0, by omega⟩ : Fin 1) = 0 from rfl, start_vec, window_vec, hi]
        change 0 ≤ (n.val : Int) + ((0 : Nat) : Int) ∧ (n.val : Int) + ((0 : Nat) : Int) < (N : Int)
        omega
    rw [dif_pos hall]
    congr 1
    funext a; refine Fin.ext ?_
    match a with
    | ⟨0, _⟩ =>
      show ((vecDims N K wf).start (ix1 k) idx 0 + ((vecDims N K wf).window (ix1 k) 0 : Int)).toNat = n.val
      rw [start_vec, window_vec, hi]; omega

/-- The vector scatter-add over the written record, read at `n`. -/
theorem scatterAdd_vecDims_apply (x : (⟨1, ![N]⟩ : Shape).Idx → EReal) (idx : IVec ⟨2, ![K, 1]⟩ w)
    (upd : (⟨1, ![K]⟩ : Shape).Idx → EReal) (n : Fin N) :
    Ideal.hostScatterAdd (vecDims N K wf) x idx upd (ix1 n) =
      x (ix1 n) + ∑ k : Fin K, if (idx (ix2 k ⟨0, Nat.one_pos⟩)).toInt = (n.val : Int) then upd (ix1 k) else 0 := by
  unfold Ideal.hostScatterAdd
  congr 1
  rw [Finset.sum_filter, sum_idx1]
  refine Finset.sum_congr rfl fun k _ => ?_
  by_cases h : (idx (ix2 k ⟨0, Nat.one_pos⟩)).toInt = (n.val : Int)
  · rw [if_pos h, if_pos ((resultIdx?_vec wf idx k n).mpr h)]
  · rw [if_neg h, if_neg (fun h' => h ((resultIdx?_vec wf idx k n).mp h'))]

end Vec

/-- THE VECTOR SCATTER-ADD READ AT `n`: the operand there plus the updates whose scatter index is `n`. -/
theorem scatterAdd_vec_apply {N K w : Nat}
    (d : ScatterDims ⟨1, ![N]⟩ ⟨2, ![K, 1]⟩ ⟨1, ![K]⟩)
    (huw : d.updateWindowDims = []) (hiw : d.insertedWindowDims = [0])
    (hsd : d.scatterDimsToOperandDims = [0]) (hiv : d.indexVectorDim = 1)
    (x : (⟨1, ![N]⟩ : Shape).Idx → EReal) (idx : IVec ⟨2, ![K, 1]⟩ w)
    (upd : (⟨1, ![K]⟩ : Shape).Idx → EReal) (n : Fin N) :
    Ideal.hostScatterAdd d x idx upd (ix1 n) =
      x (ix1 n) + ∑ k : Fin K, if (idx (ix2 k ⟨0, Nat.one_pos⟩)).toInt = (n.val : Int) then upd (ix1 k) else 0 := by
  obtain ⟨uw, iw, sd, iv, wf⟩ := d
  dsimp only at huw hiw hsd hiv
  subst huw hiw hsd hiv
  exact scatterAdd_vecDims_apply wf x idx upd n

/-! ## The gather of single elements of a vector -/

/-- The element of a table of `N` entries a start index selects: the index as a signed integer, clamped into
    `[0, N − 1]`. -/
def clampVec (N : Nat) (hN : 0 < N) {w : Nat} (v : BitVec w) : Fin N := ⟨min v.toInt.toNat (N - 1), by omega⟩

theorem clampVec_val (N : Nat) (hN : 0 < N) {w : Nat} (v : BitVec w) :
    (clampVec N hN v).val = min v.toInt.toNat (N - 1) := rfl

/-- Start indices `[R, 1]`, result `[R]`: element `b` is the table's at the entry `idx[b, 0]` selects. -/
theorem gather_vec {α : Type} {N R w : Nat} (hN : 0 < N)
    (d : GatherDims ⟨1, ![N]⟩ ⟨2, ![R, 1]⟩ ⟨1, ![R]⟩)
    (hoff : d.offsetDims = []) (hcoll : d.collapsedSliceDims = [0]) (hob : d.operandBatchingDims = [])
    (hsim : d.startIndexMap = [0]) (hivd : d.indexVectorDim = 1)
    (x : (⟨1, ![N]⟩ : Shape).Idx → α) (idx : IVec ⟨2, ![R, 1]⟩ w) (b : Fin R) :
    Host.gather d x idx (ix1 b) = x (ix1 (clampVec N hN (idx (ix2 b ⟨0, Nat.one_pos⟩)))) := by
  have hsl : d.sliceSizes 0 = 1 := d.slice_collapsed 0 (by rw [hcoll]; exact List.mem_singleton.mpr rfl)
  obtain ⟨od, cd, ob, sb, sm, iv, ss, wf⟩ := d
  dsimp only at hoff hcoll hob hsim hivd hsl
  subst hoff hcoll hob hsim hivd
  unfold Host.gather
  congr 1
  funext a
  refine Fin.ext ?_
  match a with
  | ⟨0, _⟩ =>
    -- the one operand axis: collapsed and start-indexed, so the coordinate is the clamped start alone
    show GatherDims.start _ _ idx 0 + GatherDims.batchCoord _ _ 0 + GatherDims.offCoord _ _ 0 = _
    rw [GatherDims.batchCoord_eq_zero _ _ _ List.not_mem_nil,
      GatherDims.offCoord_eq_zero _ _ _ (fun h => ((GatherDims.mem_sKept _ _).mp h).1 (List.mem_singleton.mpr rfl))]
    unfold GatherDims.start
    rw [dif_pos (List.mem_singleton.mpr rfl)]
    show min (idx _).toInt.toNat (N - ss 0) = min (idx (ix2 b ⟨0, Nat.one_pos⟩)).toInt.toNat (N - 1)
    rw [hsl]
    -- the start index is read at the result's one batch coordinate, component 0
    refine congrArg (fun v => min (idx v).toInt.toNat (N - 1)) ?_
    funext q
    refine Fin.ext ?_
    match q with
    | ⟨0, _⟩ => rfl
    | ⟨1, _⟩ => rfl

end Cert.LibScatterRows

end
-- ==== Proof.KernelBins.lean ====
/-
  The kernel's flat scatter-add, read at one bin.

  Position `(b, s)` of a `[1024, 200]` array has the flat position `200·b + s`, and its target in the vector of
  length `1024·100000` is the 32-bit word `100000·b + item b s`. When every item id, read signed, lies in
  `[0, 100000)`, that word is computed without wrapping: `100000·1023 + 99999 < 2³¹`, so its signed reading is the
  number `100000·b + item b s` itself, it is never negative, and the kernel's correction for negative words leaves
  it alone. Element `(b, n)` of the result is flat element `100000·b + n` of the vector, and

      100000·b' + i = 100000·b + n   with  0 ≤ i, n < 100000   exactly when   b' = b  and  i = n

  (quotient and remainder by 100000 are unique). So of the 204800 updates only those of row `b` whose item id is `n`
  land on element `(b, n)`: the vector's zero there plus their sum, which is `Cert.Spec.binned`.
-/
import proofs.«404053_j12146167513170_2_alg».proof.Proof.KernelTail
import proofs.«404053_j12146167513170_2_alg».proof.Proof.Spec
import proofs.«404053_j12146167513170_2_alg».proof.Proof.LibScatterRows
import Idealize.ShloMosaic.Lib.Pipeline.Value
import Idealize.ShloMosaic.Lib.StableHlo.Predicate
import Mathlib.Algebra.BigOperators.Fin
import Mathlib.Logic.Equiv.Fin.Basic

noncomputable section

open scoped BigOperators

namespace Cert.KernelBins

open Idealize.ShloMosaic Idealize.ShloMosaic.ValueIdx Cert.KernelIdeal Cert.KernelIdeal.Facts₀

/-! ## Flat positions -/

/-- The row-major position of `(b, s)` in a `[1024, 200]` array. -/
def flat (b : Fin 1024) (s : Fin 200) : Fin 204800 := ⟨200 * b.val + s.val, by omega⟩

/-- Every flat position is `flat b s` for exactly one pair, so a sum over the 204800 positions is the sum over the
    rows of the sums over each row's 200 positions. -/
theorem sum_flat (f : Fin 204800 → EReal) :
    ∑ k : Fin 204800, f k = ∑ b : Fin 1024, ∑ s : Fin 200, f (flat b s) := by
  rw [← Equiv.sum_comp (finProdFinEquiv (m := 1024) (n := 200)) f, Fintype.sum_prod_type]
  refine Finset.sum_congr rfl fun b _ => Finset.sum_congr rfl fun s _ => ?_
  refine congrArg f (Fin.ext ?_)
  rw [finProdFinEquiv_apply_val]
  show s.val + 200 * b.val = 200 * b.val + s.val
  omega

/-- The flattened attention array at position `flat b s` is the array's entry `(b, s)`. -/
theorem flatUpdates_apply (a : FVec Ideal S1024x200 .f32) (b : Fin 1024) (s : Fin 200) :
    shapeCast S204800 a shapeCasts_S1024x200_S204800 (ix1 (flat b s)) = a (ix2 b s) :=
  shapeCast_apply _ _ (ix1 (flat b s)) (ix2 b s) (by
    rw [Shape.rowMajor_val_two, Shape.rowMajor_val_one]
    show b.val * 200 + s.val = 200 * b.val + s.val
    omega)

/-- The vector the updates are added into is zero everywhere. -/
theorem zeros_apply (j : S102400000.Idx) :
    broadcastInDim S102400000 ![] bcast_S_S102400000 (constant (F := Ideal) S_ .f32 0x00000000#32) j
      = Ideal.ofBits .f32 0x00000000#32 := rfl

/-! ## The target word -/

/-- The flat target of position `flat b s` is the word `b · 100000 + item b s`: the row number comes from the count
    along the first axis, spread along the row, and the product and the sum are the 32-bit ones. -/
theorem flatIds_apply (item : IVec S1024x200 32) (b : Fin 1024) (s : Fin 200) :
    Cert.KernelTail.flatIds item (ix1 (flat b s)) = BitVec.ofNat 32 b.val * 100000#32 + item (ix2 b s) := by
  unfold Cert.KernelTail.flatIds
  rw [shapeCast_apply _ _ (ix1 (flat b s)) (ix2 b s) (by
    rw [Shape.rowMajor_val_two, Shape.rowMajor_val_one]
    show b.val * 200 + s.val = 200 * b.val + s.val
    omega)]
  rfl

/-- A word whose signed reading is not negative reads the same unsigned, and is below `2³¹`. -/
theorem toInt_eq_toNat_of_nonneg (w : BitVec 32) (h : 0 ≤ w.toInt) :
    w.toInt = (w.toNat : Int) ∧ w.toNat < 2 ^ 31 := by
  have hlt := w.isLt
  rw [BitVec.toInt_eq_toNat_cond] at h ⊢
  split at h <;> rename_i hc
  · rw [if_pos hc]; omega
  · omega

/-- NO WRAP: for a row number below 1024 and an id in `[0, 100000)` the 32-bit `b · 100000 + id` is the number
    `100000·b + id`, since that is below `2³²`. -/
theorem target_toNat (b : Fin 1024) (w : BitVec 32) (h0 : 0 ≤ w.toInt) (h1 : w.toInt < 100000) :
    (BitVec.ofNat 32 b.val * 100000#32 + w).toNat = 100000 * b.val + w.toNat := by
  obtain ⟨e, hw⟩ := toInt_eq_toNat_of_nonneg w h0
  have hb := b.isLt
  rw [BitVec.toNat_add, BitVec.toNat_mul, BitVec.toNat_ofNat]
  show (b.val % 2 ^ 32 * 100000 % 2 ^ 32 + w.toNat) % 2 ^ 32 = 100000 * b.val + w.toNat
  omega

/-- The target word is below `2³¹`, so it is not negative and the move up by the vector's length does not apply:
    the corrected target is the target. -/
theorem wrappedIds_apply (item : IVec S1024x200 32)
    (hr : ∀ (b : Fin 1024) (s : Fin 200), 0 ≤ (item (ix2 b s)).toInt ∧ (item (ix2 b s)).toInt < 100000)
    (b : Fin 1024) (s : Fin 200) :
    Cert.KernelTail.wrappedIds item (ix1 (flat b s)) = BitVec.ofNat 32 b.val * 100000#32 + item (ix2 b s) := by
  obtain ⟨e, hw⟩ := toInt_eq_toNat_of_nonneg _ (hr b s).1
  have hb := b.isLt
  have hlt := (hr b s).2
  have hc : ¬ (IntOp.cmpi .slt (Cert.KernelTail.flatIds item (ix1 (flat b s))) 0#32 = 1#1) := by
    rw [flatIds_apply,
      StableHlo.Predicate.slt_iff_toNat (by rw [target_toNat b _ (hr b s).1 (hr b s).2]; omega) (by decide)]
    exact Nat.not_lt_zero _
  unfold Cert.KernelTail.wrappedIds
  show Scalar.select (IntOp.cmpi .slt (Cert.KernelTail.flatIds item (ix1 (flat b s))) 0#32) _
      (Cert.KernelTail.flatIds item (ix1 (flat b s))) = _
  unfold Scalar.select
  exact (if_neg hc).trans (flatIds_apply item b s)

/-- The scatter index of update `flat b s`, read signed, is the number `100000·b + item b s`. -/
theorem index_toInt (item : IVec S1024x200 32)
    (hr : ∀ (b : Fin 1024) (s : Fin 200), 0 ≤ (item (ix2 b s)).toInt ∧ (item (ix2 b s)).toInt < 100000)
    (b : Fin 1024) (s : Fin 200) :
    (broadcastInDim S204800x1 ![0] bcast_S204800_S204800x1_0 (Cert.KernelTail.wrappedIds item)
        (ix2 (flat b s) ⟨0, Nat.one_pos⟩)).toInt = 100000 * (b.val : Int) + (item (ix2 b s)).toInt := by
  obtain ⟨e, hw⟩ := toInt_eq_toNat_of_nonneg _ (hr b s).1
  have hb := b.isLt
  have hlt := (hr b s).2
  -- the added unit axis changes nothing: entry `(k, 0)` is entry `k`
  have h1 : broadcastInDim S204800x1 ![0] bcast_S204800_S204800x1_0 (Cert.KernelTail.wrappedIds item)
      (ix2 (flat b s) ⟨0, Nat.one_pos⟩) = Cert.KernelTail.wrappedIds item (ix1 (flat b s)) :=
    broadcastInDim_apply _ _ _ _ _ (fun a => match a with | ⟨0, _⟩ => rfl)
  rw [h1, wrappedIds_apply item hr b s,
    StableHlo.Predicate.toInt_eq_toNat_of_lt (by rw [target_toNat b _ (hr b s).1 (hr b s).2]; omega),
    target_toNat b _ (hr b s).1 (hr b s).2, e]
  push_cast
  rfl

/-! ## The bins -/

/-- THE FLAT SCATTER-ADD READ AT A BIN. Element `(b, n)` of the result is flat element `100000·b + n` of the vector:
    its zero plus the updates whose target is that number. The target of update `flat b' s` is `100000·b' + item b' s`
    with the id in `[0, 100000)`, which is `100000·b + n` only for `b' = b` and `item b s = n`; so the rows other than
    `b` add nothing, and row `b` adds its entries whose id is `n`. -/
theorem tail_apply (item : IVec S1024x200 32) (a : FVec Ideal S1024x200 .f32)
    (hr : ∀ (b : Fin 1024) (s : Fin 200), 0 ≤ (item (ix2 b s)).toInt ∧ (item (ix2 b s)).toInt < 100000)
    (b : Fin 1024) (n : Fin 100000) :
    Cert.KernelTail.tail (F := Ideal) item a (ix2 b n)
      = Ideal.ofBits .f32 0x00000000#32 + Cert.Spec.binned (fun b s => a (ix2 b s)) (fun b s => item (ix2 b s)) b n := by
  have hbl := b.isLt
  have hnl := n.isLt
  unfold Cert.KernelTail.tail
  -- element `(b, n)` of the `[1024, 100000]` reading is flat element `100000·b + n`
  rw [shapeCast_apply _ _ (ix2 b n) (ix1 (⟨100000 * b.val + n.val, by omega⟩ : Fin 102400000)) (by
    rw [Shape.rowMajor_val_one, Shape.rowMajor_val_two]
    show 100000 * b.val + n.val = b.val * 100000 + n.val
    omega)]
  show Ideal.hostScatterAdd scatter_S102400000_S204800x1_S204800_n_0_0_1 _ _ _ (ix1 _) = _
  rw [Cert.LibScatterRows.scatterAdd_vec_apply _ rfl rfl rfl rfl]
  refine congrArg₂ (· + ·) (zeros_apply _) ?_
  rw [sum_flat]
  unfold Cert.Spec.binned
  rw [Finset.sum_eq_single b]
  · -- row `b`: the target is `100000·b + n` exactly when the id is `n`
    refine Finset.sum_congr rfl fun s _ => ?_
    rw [index_toInt item hr b s, flatUpdates_apply]
    have := hr b s
    by_cases h : (item (ix2 b s)).toInt = (n.val : Int)
    · rw [if_pos h, if_pos (by show _ = ((100000 * b.val + n.val : Nat) : Int); push_cast; omega)]
    · rw [if_neg h, if_neg (by show ¬ _ = ((100000 * b.val + n.val : Nat) : Int); push_cast; omega)]
  · -- another row: its targets lie in that row's own block of 100000 numbers
    intro b' _ hb'
    refine Finset.sum_eq_zero fun s _ => ?_
    have := hr b' s
    have hne : b'.val ≠ b.val := fun h => hb' (Fin.ext h)
    have hb'l := b'.isLt
    rw [index_toInt item hr b' s, if_neg (by show ¬ _ = ((100000 * b.val + n.val : Nat) : Int); push_cast; omega)]
  · intro h; exact absurd (Finset.mem_univ b) h

end Cert.KernelBins

end
-- ==== Proof.LibRowMax.lean ====
/-
  A row-wise maximum on the host, read at an index, at the ideal values.

  A one-operand reduce with a maximum body over axis 1 of an `m × n` array, started from the word of −∞, is at row `r`
  the fold of the binary maximum of the extended reals over the row's `n` entries, started from `⊥`.
-/
import Idealize.ShloMosaic.PureOps.Reduce
import Idealize.ShloMosaic.PureOps.Ideal.Laws
import Idealize.ShloMosaic.Lib.ValueIdx

noncomputable section

namespace Cert.LibRowMax

open Idealize.ShloMosaic Idealize.ShloMosaic.ValueIdx

/-- The f32 word of −∞ is the bottom of the extended reals. -/
theorem ofBits_neg_inf_f32 : Ideal.ofBits .f32 0xFF800000#32 = (⊥ : EReal) := by
  simp [Ideal.ofBits, Ideal.ieee]

/-- The reduced index `r` with column `k` put back is (r, k). -/
theorem lift_row {m n : Nat} (h : (⟨2, ![m, n]⟩ : Shape).Reduces [1] (⟨1, ![m]⟩ : Shape)) (r : Fin m)
    (k : Fin ((⟨2, ![m, n]⟩ : Shape).size 1)) : h.lift (ix1 r) k = ix2 r (⟨k.val, k.isLt⟩ : Fin n) := by
  funext c; apply Fin.ext
  fin_cases c <;> rfl

/-- From −∞ the host's reduce with a maximum body along the rows, at row `r`, is the fold of `max` from `⊥` over the row. -/
theorem hostReduce_max_row {m n : Nat} (x : FVec Ideal ⟨2, ![m, n]⟩ .f32)
    (h' : (⟨2, ![m, n]⟩ : Shape).ReducesTo [1] (⟨1, ![m]⟩ : Shape))
    (h : (⟨2, ![m, n]⟩ : Shape).Reduces [1] (⟨1, ![m]⟩ : Shape)) (hu : 0 < (⟨0, ![]⟩ : Shape).numel) (r : Fin m) :
    Host.reduce FloatOps.maximumf x (constant (⟨0, ![]⟩ : Shape) .f32 0xFF800000#32) h' hu (ix1 r)
      = (Finset.univ : Finset (Fin n)).fold max (⊥ : EReal) (fun J => x (ix2 r J)) := by
  rw [Host.reduce_eq_fold_single FloatOps.maximumf x _ h' h hu]
  have hf : (x ∘ h.lift (ix1 r)) = fun k : Fin n => x (ix2 r k) := funext fun k => congrArg x (lift_row h r k)
  have hi : (constant (⟨0, ![]⟩ : Shape) .f32 0xFF800000#32 : FVec Ideal ⟨0, ![]⟩ .f32) (Shape.Idx.first hu) = (⊥ : EReal) :=
    ofBits_neg_inf_f32
  rw [hi]
  exact congrArg (fun f => Finset.fold max (⊥ : EReal) f (Finset.univ : Finset (Fin n))) hf

/-- info: 'Cert.LibRowMax.hostReduce_max_row' depends on axioms: [propext, Classical.choice, Quot.sound] -/
#guard_msgs in #print axioms hostReduce_max_row

end Cert.LibRowMax

end
-- ==== Proof.RefRow.lean ====
/-
  The reference's attention weight at one entry.

  The reference computes, for every batch row b and position s, the softmax over the row's positions of a masked
  additive-attention score.  Read at the entry (b, s), each of its stages depends only on row b of the inputs:

    the hidden pre-activation at (b, s, h) is  Σ_k x0[b,s,k] · x4[h,k]  +  Σ_k x1[b,k] · x5[h,k]
      (both weight matrices are contracted along their SECOND axis, so entry (h,k) multiplies input coordinate k
       into hidden coordinate h);
    the unmasked score at (b, s) is  Σ_h tanh(that) · x6[0,h]  +  x7[0];
    the score is the fill word where x3[b,s] is set, the unmasked score elsewhere;
    the row's top is the maximum of the scores of row b: a fold of max from −∞, and taking the maximum of that
      with −∞ once more changes nothing because −∞ is the bottom of the extended reals;
    the weight is exp(score − top), and the result is the weight divided by the row's sum of weights
      (the sum starts from the zero word, which is 0).

  These are exactly the functions lin, raw, score, top, weight and attRow of the specification, at row b's slices of the
  inputs.  Every step is a reading of one operation at an index; no algebraic law is used.
-/
import proofs.«404053_j12146167513170_2_alg».proof.Proof.Gen.ReferenceIdeal.Read
import proofs.«404053_j12146167513170_2_alg».proof.Proof.Spec
import proofs.«404053_j12146167513170_2_alg».proof.Proof.LibRowMax

noncomputable section

open scoped BigOperators

namespace Cert.RefRow

open Cert.ReferenceIdeal Cert.ReferenceIdeal.Gen Cert.ReferenceIdeal.Read Idealize.ShloMosaic Idealize.ShloMosaic.ValueIdx

/-! ### Where each stage reads its operands, at explicit coordinates -/

theorem lidx0 (b : Fin 1024) (s : Fin 200) (h k : Fin 128) : lidx_main_v0 (ix3 b s h) k = ix3 b s k :=
  funext fun a => Fin.ext (by match a with | ⟨0, _⟩ => rfl | ⟨1, _⟩ => rfl | ⟨2, _⟩ => rfl)

theorem ridx0 (b : Fin 1024) (s : Fin 200) (h k : Fin 128) : ridx_main_v0 (ix3 b s h) k = ix2 h k :=
  funext fun a => Fin.ext (by match a with | ⟨0, _⟩ => rfl | ⟨1, _⟩ => rfl)

theorem idx3 (b : Fin 1024) (s : Fin 200) (h : Fin 128) : idx_main_v3 (ix3 b s h) = ix3 b (0 : Fin 1) h :=
  funext fun a => Fin.ext (by match a with | ⟨0, _⟩ => rfl | ⟨1, _⟩ => rfl | ⟨2, _⟩ => rfl)

theorem idx2 (b : Fin 1024) (h : Fin 128) : idx_main_v2 (ix3 b (0 : Fin 1) h) = ix2 b h :=
  funext fun a => Fin.ext (by match a with | ⟨0, _⟩ => rfl | ⟨1, _⟩ => rfl)

theorem lidx1 (b : Fin 1024) (h k : Fin 128) : lidx_main_v1 (ix2 b h) k = ix2 b k :=
  funext fun a => Fin.ext (by match a with | ⟨0, _⟩ => rfl | ⟨1, _⟩ => rfl)

theorem ridx1 (b : Fin 1024) (h k : Fin 128) : ridx_main_v1 (ix2 b h) k = ix2 h k :=
  funext fun a => Fin.ext (by match a with | ⟨0, _⟩ => rfl | ⟨1, _⟩ => rfl)

theorem idx7 (b : Fin 1024) (s : Fin 200) : idx_main_v7 (ix2 b s) = ix3 b s (0 : Fin 1) :=
  funext fun a => Fin.ext (by
    have hb : b.val < 1024 := b.isLt
    have hs : s.val < 200 := s.isLt
    match a with
    | ⟨0, _⟩ => show (b.val * 200 + s.val) / 200 = b.val; omega
    | ⟨1, _⟩ => show (b.val * 200 + s.val) / 1 % 200 = s.val; omega
    | ⟨2, _⟩ => rfl)

theorem lidx6 (b : Fin 1024) (s : Fin 200) (k : Fin 128) : lidx_main_v6 (ix3 b s (0 : Fin 1)) k = ix3 b s k :=
  funext fun a => Fin.ext (by match a with | ⟨0, _⟩ => rfl | ⟨1, _⟩ => rfl | ⟨2, _⟩ => rfl)

theorem ridx6 (b : Fin 1024) (s : Fin 200) (k : Fin 128) : ridx_main_v6 (ix3 b s (0 : Fin 1)) k = ix2 (0 : Fin 1) k :=
  funext fun a => Fin.ext (by match a with | ⟨0, _⟩ => rfl | ⟨1, _⟩ => rfl)

theorem idx9 (b : Fin 1024) (s : Fin 200) : idx_main_v9 (ix2 b s) = ix2 (0 : Fin 1) (0 : Fin 1) :=
  funext fun a => Fin.ext (by match a with | ⟨0, _⟩ => rfl | ⟨1, _⟩ => rfl)

theorem idx8 : idx_main_v8 (ix2 (0 : Fin 1) (0 : Fin 1)) = ix1 (0 : Fin 1) :=
  funext fun a => Fin.ext (by match a with | ⟨0, _⟩ => rfl)

theorem idx16 (b : Fin 1024) (s : Fin 200) : idx_main_v16 (ix2 b s) = ix2 b (0 : Fin 1) :=
  funext fun a => Fin.ext (by match a with | ⟨0, _⟩ => rfl | ⟨1, _⟩ => rfl)

theorem idx15 (b : Fin 1024) : idx_main_v15 (ix2 b (0 : Fin 1)) = ix1 b :=
  funext fun a => Fin.ext (by match a with | ⟨0, _⟩ => rfl)

theorem idx21 (b : Fin 1024) (s : Fin 200) : idx_main_v21 (ix2 b s) = ix2 b (0 : Fin 1) :=
  funext fun a => Fin.ext (by match a with | ⟨0, _⟩ => rfl | ⟨1, _⟩ => rfl)

theorem idx20 (b : Fin 1024) : idx_main_v20 (ix2 b (0 : Fin 1)) = ix1 b :=
  funext fun a => Fin.ext (by match a with | ⟨0, _⟩ => rfl)

theorem idx19 (b : Fin 1024) (k : Fin 200) : idx_main_v19 (ix1 b) k = ix2 b k :=
  funext fun a => Fin.ext (by match a with | ⟨0, _⟩ => rfl | ⟨1, _⟩ => rfl)

/-! ### The stages -/

section
variable (x0 : (⟨S1024x200x128, .f32⟩ : BufTy).Contents (Elt Ideal)) (x1 : (⟨S1024x128, .f32⟩ : BufTy).Contents (Elt Ideal))
  (x3 : (⟨S1024x200, .i1⟩ : BufTy).Contents (Elt Ideal)) (x4 x5 : (⟨S128x128, .f32⟩ : BufTy).Contents (Elt Ideal))
  (x6 : (⟨S1x128, .f32⟩ : BufTy).Contents (Elt Ideal)) (x7 : (⟨S1, .f32⟩ : BufTy).Contents (Elt Ideal))

/-- The hidden pre-activation at (b, s, h): the memory row's product plus the last state's product, each weight
    matrix contracted along its second axis. -/
theorem lin_apply (b : Fin 1024) (s : Fin 200) (h : Fin 128) :
    val_main_v4 (F := Ideal) x0 x1 x4 x5 (ix3 b s h)
      = Cert.Spec.lin (fun s k => x0 (ix3 b s k)) (fun k => x1 (ix2 b k))
          (fun k h => x4 (ix2 h k)) (fun k h => x5 (ix2 h k)) s h := by
  rw [val_main_v4_apply, val_main_v0_apply, val_main_v3_apply, val_main_v2_apply, val_main_v1_apply]
  simp only [idx3, idx2, lidx0, ridx0, lidx1, ridx1, Ideal.addf_def]
  rfl

/-- The unmasked score at (b, s): the readout of the tanh of the pre-activations, plus the bias. -/
theorem raw_apply (b : Fin 1024) (s : Fin 200) :
    val_main_v10 (F := Ideal) x0 x1 x4 x5 x6 x7 (ix2 b s)
      = Cert.Spec.raw (fun s k => x0 (ix3 b s k)) (fun k => x1 (ix2 b k))
          (fun k h => x4 (ix2 h k)) (fun k h => x5 (ix2 h k)) (fun h => x6 (ix2 0 h)) (x7 (ix1 0)) s := by
  rw [val_main_v10_apply, val_main_v7_apply, val_main_v6_apply, val_main_v9_apply, val_main_v8_apply]
  simp only [idx7, lidx6, ridx6, idx9, idx8, val_main_v5_apply, lin_apply, Ideal.addf_def, Ideal.hostUnary_tanh_def]
  rfl

/-- The masked score at (b, s): the fill word where the position is flagged. -/
theorem score_apply (b : Fin 1024) (s : Fin 200) :
    val_main_v11 (F := Ideal) x0 x1 x3 x4 x5 x6 x7 (ix2 b s)
      = Cert.Spec.score (fun s k => x0 (ix3 b s k)) (fun k => x1 (ix2 b k)) (fun s => x3 (ix2 b s))
          (fun k h => x4 (ix2 h k)) (fun k h => x5 (ix2 h k)) (fun h => x6 (ix2 0 h)) (x7 (ix1 0)) s := by
  rw [val_main_v11_apply, val_main_call0_v0_apply, val_main_cst_apply, raw_apply]
  rfl

/-- The row's top at b: the fold of max over the row's scores from −∞; the further maximum with −∞ is absorbed. -/
theorem top_apply (b : Fin 1024) :
    val_main_v14 (F := Ideal) x0 x1 x3 x4 x5 x6 x7 (ix1 b)
      = Cert.Spec.top (fun s k => x0 (ix3 b s k)) (fun k => x1 (ix2 b k)) (fun s => x3 (ix2 b s))
          (fun k h => x4 (ix2 h k)) (fun k h => x5 (ix2 h k)) (fun h => x6 (ix2 0 h)) (x7 (ix1 0)) := by
  have h12 : val_main_v12 (F := Ideal) x0 x1 x3 x4 x5 x6 x7 (ix1 b)
      = (Finset.univ : Finset (Fin 200)).fold max (⊥ : EReal)
          (fun J => val_main_v11 (F := Ideal) x0 x1 x3 x4 x5 x6 x7 (ix2 b J)) := by
    unfold val_main_v12 val_main_cst_0
    exact Cert.LibRowMax.hostReduce_max_row (m := 1024) (n := 200) _ reducesTo_S1024x200_S1024_d1 (by decide) h_S_ b
  rw [val_main_v14_apply, val_main_v13_apply, val_main_cst_1_apply, h12]
  simp only [score_apply, Ideal.maximumf_def, Ideal.ofBits_def, Cert.LibRowMax.ofBits_neg_inf_f32]
  exact max_eq_right bot_le

/-- The unnormalised weight at (b, s). -/
theorem weight_apply (b : Fin 1024) (s : Fin 200) :
    val_main_v18 (F := Ideal) x0 x1 x3 x4 x5 x6 x7 (ix2 b s)
      = Cert.Spec.weight (fun s k => x0 (ix3 b s k)) (fun k => x1 (ix2 b k)) (fun s => x3 (ix2 b s))
          (fun k h => x4 (ix2 h k)) (fun k h => x5 (ix2 h k)) (fun h => x6 (ix2 0 h)) (x7 (ix1 0)) s := by
  rw [val_main_v18_apply, val_main_v17_apply, val_main_v16_apply, val_main_v15_apply, idx16, idx15,
    score_apply, top_apply]
  rfl

/-- The attention weight at (b, s): the weight over the row's sum of weights. -/
theorem att_apply (b : Fin 1024) (s : Fin 200) :
    val_main_v22 (F := Ideal) x0 x1 x3 x4 x5 x6 x7 (ix2 b s)
      = Cert.Spec.attRow (fun s k => x0 (ix3 b s k)) (fun k => x1 (ix2 b k)) (fun s => x3 (ix2 b s))
          (fun k h => x4 (ix2 h k)) (fun k h => x5 (ix2 h k)) (fun h => x6 (ix2 0 h)) (x7 (ix1 0)) s := by
  rw [val_main_v22_apply, val_main_v21_apply, val_main_v20_apply, idx21, idx20, val_main_v19_apply,
    val_main_cst_2_apply]
  simp only [idx19, weight_apply, Ideal.hostDivf_def, Ideal.ofBits_def, Ideal.ofBits_zero_f32, zero_add]
  rfl

end

end Cert.RefRow

end
-- ==== Proof.LibScatterPair.lean ====
/-
  A scatter-add of single elements into a MATRIX, addressed by PAIRS of indices, read at an index.

  What `operand.at[rows, cols].add(updates)` lowers to for an operand `[U, V]`, scatter indices `[A, B, 2]` (the last
  axis holds the pair: component 0 the row, component 1 the column) and updates `[A, B]`: `stablehlo.scatter` with an
  `add` body and the dimension numbers update_window_dims `[]`, inserted_window_dims `[0, 1]`,
  scatter_dims_to_operand_dims `[0, 1]`, index_vector_dim `2`. There is no window axis: update element `(a, c)` is one
  scalar and lands at operand element `(idx[a, c, 0], idx[a, c, 1])`, both components read as SIGNED integers and not
  clamped: an update either of whose components is outside its axis is dropped. So the result at `(u, v)` is the
  operand there plus the sum of the updates `(a, c)` over the pairs whose row component is `u` and whose column
  component is `v` (`scatterAdd_pair_apply`).

  Stated for an ARBITRARY record of dimension numbers whose lists are the ones above (each hypothesis holds by `rfl`
  on a written record), every extent and the index word's width a variable. `pairDims` is the record with its
  conditions as a variable; `start_fst` / `start_snd` compute the window's start on the two operand axes,
  `window_pair` says both window coordinates are 0 (both axes are inserted), and `resultIdx?_pair` says where an
  update lands.
-/
import Idealize.ShloMosaic.Lib.ValueIdx

noncomputable section

open scoped BigOperators

namespace Cert.LibScatterPair

open Idealize.ShloMosaic Idealize.ShloMosaic.ValueIdx

/-- The dimension numbers of a scatter of scalars into a matrix by index pairs: operand `[U, V]`, scatter indices
    `[A, B, 2]`, updates `[A, B]`, over any evidence `wf` of their conditions. -/
abbrev pairDims (U V A B : Nat)
    (wf : ScatterDims.WF ⟨2, ![U, V]⟩ ⟨3, ![A, B, 2]⟩ ⟨2, ![A, B]⟩ [] [0, 1] [0, 1] 2) :
    ScatterDims ⟨2, ![U, V]⟩ ⟨3, ![A, B, 2]⟩ ⟨2, ![A, B]⟩ where
  updateWindowDims := []
  insertedWindowDims := [0, 1]
  scatterDimsToOperandDims := [0, 1]
  indexVectorDim := 2
  wf := wf

section Pair

variable {U V A B w : Nat}
  (wf : ScatterDims.WF ⟨2, ![U, V]⟩ ⟨3, ![A, B, 2]⟩ ⟨2, ![A, B]⟩ [] [0, 1] [0, 1] 2)

/-- On the row axis the window of update `(a, c)` starts at component 0 of its index pair, read signed. -/
theorem start_fst (idx : IVec ⟨3, ![A, B, 2]⟩ w) (a : Fin A) (c : Fin B) :
    (pairDims U V A B wf).start (ix2 a c) idx 0 = (idx (ix3 a c 0)).toInt := by
  unfold ScatterDims.start
  rw [dif_pos (show (0 : Fin 2) ∈ (pairDims U V A B wf).scatterDimsToOperandDims from by
    show (0 : Fin 2) ∈ ([0, 1] : List (Fin 2)); decide)]
  congr 2
  funext b; refine Fin.ext ?_
  match b with
  | ⟨0, _⟩ => rfl
  | ⟨1, _⟩ => rfl
  | ⟨2, _⟩ => rfl

/-- On the column axis it starts at component 1 of the pair, read signed. -/
theorem start_snd (idx : IVec ⟨3, ![A, B, 2]⟩ w) (a : Fin A) (c : Fin B) :
    (pairDims U V A B wf).start (ix2 a c) idx 1 = (idx (ix3 a c 1)).toInt := by
  unfold ScatterDims.start
  rw [dif_pos (show (1 : Fin 2) ∈ (pairDims U V A B wf).scatterDimsToOperandDims from by
    show (1 : Fin 2) ∈ ([0, 1] : List (Fin 2)); decide)]
  congr 2
  funext b; refine Fin.ext ?_
  match b with
  | ⟨0, _⟩ => rfl
  | ⟨1, _⟩ => rfl
  | ⟨2, _⟩ => rfl

/-- Both operand axes are inserted: the window coordinate is 0 on each. -/
theorem window_pair (j : (⟨2, ![A, B]⟩ : Shape).Idx) (e : Fin 2) : (pairDims U V A B wf).window j e = 0 := by
  unfold ScatterDims.window
  have h : ¬ e ∈ (pairDims U V A B wf).sKept := by
    show ¬ e ∈ (List.finRange 2).filter (· ∉ ([0, 1] : List (Fin 2)))
    revert e; decide
  rw [dif_neg h]

/-- WHERE AN UPDATE LANDS: update `(a, c)` lands at `(u, v)` exactly when component 0 of its index pair, read signed,
    is `u` and component 1, read signed, is `v`. -/
theorem resultIdx?_pair (idx : IVec ⟨3, ![A, B, 2]⟩ w) (a : Fin A) (c : Fin B) (u : Fin U) (v : Fin V) :
    (pairDims U V A B wf).resultIdx? (ix2 a c) idx = some (ix2 u v) ↔
      (idx (ix3 a c 0)).toInt = (u.val : Int) ∧ (idx (ix3 a c 1)).toInt = (v.val : Int) := by
  have hu : u.val < U := u.isLt
  have hv : v.val < V := v.isLt
  unfold ScatterDims.resultIdx?
  constructor
  · intro h
    split at h
    · rename_i hh
      have hf := Option.some.inj h
      have h0 := congrArg Fin.val (congrFun hf 0)
      have h1 := congrArg Fin.val (congrFun hf 1)
      have hh0 := (hh 0).1
      have hh1 := (hh 1).1
      simp only [start_fst, start_snd, window_pair] at h0 h1 hh0 hh1
      refine ⟨?_, ?_⟩
      · change ((idx (ix3 a c 0)).toInt + ((0 : Nat) : Int)).toNat = u.val at h0
        omega
      · change ((idx (ix3 a c 1)).toInt + ((0 : Nat) : Int)).toNat = v.val at h1
        omega
    · exact absurd h (by simp)
  · rintro ⟨hi0, hi1⟩
    have hall : ∀ e : Fin 2,
        0 ≤ (pairDims U V A B wf).start (ix2 a c) idx e + ((pairDims U V A B wf).window (ix2 a c) e : Int) ∧
        (pairDims U V A B wf).start (ix2 a c) idx e + ((pairDims U V A B wf).window (ix2 a c) e : Int)
          < ((⟨2, ![U, V]⟩ : Shape).size e : Int) := by
      intro e
      match e with
      | ⟨0, _⟩ =>
        rw [show (⟨0, by omega⟩ : Fin 2) = 0 from rfl, start_fst, window_pair, hi0]
        change 0 ≤ (u.val : Int) + ((0 : Nat) : Int) ∧ (u.val : Int) + ((0 : Nat) : Int) < (U : Int)
        omega
      | ⟨1, _⟩ =>
        rw [show (⟨1, by omega⟩ : Fin 2) = 1 from rfl, start_snd, window_pair, hi1]
        change 0 ≤ (v.val : Int) + ((0 : Nat) : Int) ∧ (v.val : Int) + ((0 : Nat) : Int) < (V : Int)
        omega
    rw [dif_pos hall]
    congr 1
    funext e; refine Fin.ext ?_
    match e with
    | ⟨0, _⟩ =>
      show ((pairDims U V A B wf).start (ix2 a c) idx 0 + ((pairDims U V A B wf).window (ix2 a c) 0 : Int)).toNat = u.val
      rw [start_fst, window_pair, hi0]; omega
    | ⟨1, _⟩ =>
      show ((pairDims U V A B wf).start (ix2 a c) idx 1 + ((pairDims U V A B wf).window (ix2 a c) 1 : Int)).toNat = v.val
      rw [start_snd, window_pair, hi1]; omega

/-- The pair scatter-add over the written record, read at `(u, v)`. -/
theorem scatterAdd_pairDims_apply (x : (⟨2, ![U, V]⟩ : Shape).Idx → EReal) (idx : IVec ⟨3, ![A, B, 2]⟩ w)
    (upd : (⟨2, ![A, B]⟩ : Shape).Idx → EReal) (u : Fin U) (v : Fin V) :
    Ideal.hostScatterAdd (pairDims U V A B wf) x idx upd (ix2 u v) =
      x (ix2 u v) + ∑ a : Fin A, ∑ c : Fin B,
        if (idx (ix3 a c 0)).toInt = (u.val : Int) ∧ (idx (ix3 a c 1)).toInt = (v.val : Int)
        then upd (ix2 a c) else 0 := by
  unfold Ideal.hostScatterAdd
  congr 1
  rw [Finset.sum_filter, sum_idx2]
  refine Finset.sum_congr rfl fun a _ => Finset.sum_congr rfl fun c _ => ?_
  by_cases h : (idx (ix3 a c 0)).toInt = (u.val : Int) ∧ (idx (ix3 a c 1)).toInt = (v.val : Int)
  · rw [if_pos h, if_pos ((resultIdx?_pair wf idx a c u v).mpr h)]
  · rw [if_neg h, if_neg (fun h' => h ((resultIdx?_pair wf idx a c u v).mp h'))]

end Pair

/-- THE PAIR SCATTER-ADD READ AT `(u, v)`: the operand there plus the updates whose index pair, read signed, is
    `(u, v)`. -/
theorem scatterAdd_pair_apply {U V A B w : Nat}
    (d : ScatterDims ⟨2, ![U, V]⟩ ⟨3, ![A, B, 2]⟩ ⟨2, ![A, B]⟩)
    (huw : d.updateWindowDims = []) (hiw : d.insertedWindowDims = [0, 1])
    (hsd : d.scatterDimsToOperandDims = [0, 1]) (hiv : d.indexVectorDim = 2)
    (x : (⟨2, ![U, V]⟩ : Shape).Idx → EReal) (idx : IVec ⟨3, ![A, B, 2]⟩ w)
    (upd : (⟨2, ![A, B]⟩ : Shape).Idx → EReal) (u : Fin U) (v : Fin V) :
    Ideal.hostScatterAdd d x idx upd (ix2 u v) =
      x (ix2 u v) + ∑ a : Fin A, ∑ c : Fin B,
        if (idx (ix3 a c 0)).toInt = (u.val : Int) ∧ (idx (ix3 a c 1)).toInt = (v.val : Int)
        then upd (ix2 a c) else 0 := by
  obtain ⟨uw, iw, sd, iv, wf⟩ := d
  dsimp only at huw hiw hsd hiv
  subst huw hiw hsd hiv
  exact scatterAdd_pairDims_apply wf x idx upd u v

end Cert.LibScatterPair

end
-- ==== Proof.RefBins.lean ====
/-
  The reference's last operation, a scatter-add into a zero array of bins, read at one bin.

  The reference scatters the attention weights `a[b, s]` into zeros `[1024, 100000]` at the index pairs
  `(row, item)`: the row component is the batch coordinate itself (an iota along axis 0, broadcast), the item
  component is the item id `x2[b, s]`; each is first passed through "a negative index counts from the end"
  (`select (i < 0) (i + extent) i`), and the two are joined along a new last axis of extent 2.

  THE INDEX ARRAY (`idx_fst`, `idx_snd`). The batch coordinate `a < 1024` is the word `BitVec.ofNat 32 a`, which is
  not negative, so the select keeps it; an item id in `[0, 100000)` is not negative either, so the select keeps it
  too. Hence component 0 of pair `(a, c)` is the word of `a` and component 1 is `x2[a, c]`.

  THE BIN (`bins_apply`). Update `(a, c)` lands at `(b, n)` exactly when both components, read signed, are `b` and
  `n`: when `a = b` and the item id at `(b, c)` is `n`. So of the double sum over all updates only row `b` remains, and
  it is the sum of `a[b, s]` over the positions `s` whose item id is `n`: the specification's `binned`, on top of the
  zero the bins start from.
-/
import proofs.«404053_j12146167513170_2_alg».proof.Proof.Gen.ReferenceIdeal.Read
import proofs.«404053_j12146167513170_2_alg».proof.Proof.Spec
import proofs.«404053_j12146167513170_2_alg».proof.Proof.LibScatterPair
import Idealize.ShloMosaic.Lib.StableHlo.Predicate

noncomputable section

open scoped BigOperators

namespace Cert.RefBins

open Idealize.ShloMosaic Idealize.ShloMosaic.ValueIdx Cert.ReferenceIdeal Cert.ReferenceIdeal.Read

/-- A word that is not negative as a signed integer fails the signed test "below zero". -/
theorem slt_zero_of_nonneg (x : BitVec 32) (h : 0 ≤ x.toInt) : IntOp.cmpi .slt x 0#32 = 0#1 := by
  unfold IntOp.cmpi
  show BitVec.ofBool (x.slt 0#32) = 0#1
  have h' : x.slt 0#32 = false := by
    simp only [BitVec.slt, BitVec.toInt_zero, decide_eq_false_iff_not, not_lt]; exact h
  rw [h']; rfl

/-- A batch coordinate, as a 32-bit word read signed, is itself. -/
theorem toInt_row (a : Fin 1024) : (BitVec.ofNat 32 a.val).toInt = (a.val : Int) :=
  StableHlo.Predicate.toInt_ofNat_small a.val (by have := a.isLt; omega)

/-- Component 0 of the index pair of update `(a, c)` is the batch coordinate `a` as a word: the iota along axis 0,
    which is not negative, so the wrap-around select keeps it. -/
theorem idx_fst (x2 : (⟨S1024x200, .i32⟩ : BufTy).Contents (Elt Ideal)) (a : Fin 1024) (c : Fin 200) :
    val_main_v39 (F := Ideal) x2 (ix3 a c 0) = BitVec.ofNat 32 a.val := by
  unfold val_main_v39
  refine (concatenate_pair_apply_left (t := S1024x200x2) (s₁ := S1024x200x1) (s₂ := S1024x200x1) 2
    (val_main_v37 (F := Ideal)) (val_main_v38 (F := Ideal) x2) _ (ix3 a c (0 : Fin 2)) rfl (ix3 a c (0 : Fin 1))
    (fun b => match b with
      | ⟨0, _⟩ => rfl
      | ⟨1, _⟩ => rfl
      | ⟨2, _⟩ => rfl)).trans ?_
  rw [val_main_v37_apply, val_main_v36_apply, val_main_v30_apply, val_main_v27_apply, val_main_v24_apply,
    val_main_v23_apply, val_main_v26_apply, val_main_c_apply]
  show Scalar.select (IntOp.cmpi .slt (BitVec.ofNat 32 a.val) 0#32) _ (BitVec.ofNat 32 a.val) = _
  rw [slt_zero_of_nonneg _ (by rw [toInt_row]; exact Int.natCast_nonneg _), select_zero]

/-- Component 1 of the index pair of update `(a, c)` is the item id at `(a, c)`, when that id is not negative: the
    wrap-around select keeps it. -/
theorem idx_snd (x2 : (⟨S1024x200, .i32⟩ : BufTy).Contents (Elt Ideal)) (a : Fin 1024) (c : Fin 200)
    (h : 0 ≤ (x2 (ix2 a c)).toInt) :
    val_main_v39 (F := Ideal) x2 (ix3 a c 1) = x2 (ix2 a c) := by
  unfold val_main_v39
  refine (concatenate_pair_apply_right (t := S1024x200x2) (s₁ := S1024x200x1) (s₂ := S1024x200x1) 2
    (val_main_v37 (F := Ideal)) (val_main_v38 (F := Ideal) x2) _ (ix3 a c (1 : Fin 2)) rfl rfl (ix3 a c (0 : Fin 1))
    (fun b => match b with
      | ⟨0, _⟩ => fun _ => rfl
      | ⟨1, _⟩ => fun _ => rfl
      | ⟨2, _⟩ => fun hb => absurd rfl hb) rfl).trans ?_
  have hi : idx_main_v38 (ix3 a c (0 : Fin 1)) = ix2 a c := by
    funext e
    match e with
    | ⟨0, _⟩ => rfl
    | ⟨1, _⟩ => rfl
  rw [val_main_v38_apply, val_main_v35_apply, val_main_v32_apply, val_main_v31_apply, val_main_c_5_apply, hi]
  show Scalar.select (IntOp.cmpi .slt (x2 (ix2 a c)) 0#32) _ (x2 (ix2 a c)) = _
  rw [slt_zero_of_nonneg _ h, select_zero]

/-- THE REFERENCE'S BINS: the scatter-add of the updates `a` into zeros at the pairs (batch row, item id), read at
    bin `n` of row `b`, is zero plus the row's entries added up over the positions whose item id is `n`. -/
theorem bins_apply (x2 : (⟨S1024x200, .i32⟩ : BufTy).Contents (Elt Ideal))
    (a : (⟨S1024x200, .f32⟩ : BufTy).Contents (Elt Ideal))
    (hr : ∀ (b : Fin 1024) (s : Fin 200), 0 ≤ (x2 (ix2 b s)).toInt ∧ (x2 (ix2 b s)).toInt < 100000)
    (b : Fin 1024) (n : Fin 100000) :
    Host.scatterAdd (F := Ideal) Cert.ReferenceIdeal.scatter_S1024x100000_S1024x200x2_S1024x200_n_01_01_2
        (Cert.ReferenceIdeal.Read.val_main_v25 (F := Ideal)) (Cert.ReferenceIdeal.Read.val_main_v39 (F := Ideal) x2) a
        (ix2 b n)
      = Ideal.ofBits .f32 0x00000000#32
        + Cert.Spec.binned (fun b s => a (ix2 b s)) (fun b s => x2 (ix2 b s)) b n := by
  refine (Cert.LibScatterPair.scatterAdd_pair_apply
    Cert.ReferenceIdeal.scatter_S1024x100000_S1024x200x2_S1024x200_n_01_01_2 rfl rfl rfl rfl
    (val_main_v25 (F := Ideal)) (val_main_v39 (F := Ideal) x2) a b n).trans ?_
  -- the bins start from the zero word, broadcast
  have h0 : val_main_v25 (F := Ideal) (ix2 b n) = Ideal.ofBits .f32 0x00000000#32 := by
    rw [val_main_v25_apply]; rfl
  rw [h0]
  refine congrArg (fun t => Ideal.ofBits .f32 0x00000000#32 + t) ?_
  unfold Cert.Spec.binned
  -- only the updates of row `b` carry the row component `b`
  rw [Finset.sum_eq_single b]
  · refine Finset.sum_congr rfl fun s _ => ?_
    rw [idx_fst, idx_snd x2 b s (hr b s).1, toInt_row]
    by_cases h : (x2 (ix2 b s)).toInt = (n.val : Int)
    · rw [if_pos ⟨rfl, h⟩, if_pos h]
    · rw [if_neg (fun h' => h h'.2), if_neg h]
  · intro a' _ hne
    refine Finset.sum_eq_zero fun c _ => ?_
    rw [idx_fst, toInt_row]
    refine if_neg fun h' => hne (Fin.ext ?_)
    have := h'.1
    omega
  · intro h; exact absurd (Finset.mem_univ b) h

end Cert.RefBins

end
-- ==== Proof.Bridge.lean ====
/-
  The two programs' results are one function of the arguments.

  Both end with the attention array binned by item id.  The reference's attention stage is, entry by entry, the
  attention weight of the specification at the batch row's data (RefRow), which is how the kernel's attention array
  of the arguments is defined (KernelArray's `attArg`).  With every item id in `[0, 100000)`, bin `n` of row `b` is,
  on both sides, the zero the bins start from plus row `b`'s attention entries added up over the positions whose id
  is `n`: the reference's paired scatter (RefBins) and the kernel's flattened one (KernelBins) both read so.
-/
import proofs.«404053_j12146167513170_2_alg».proof.Proof.Gen.ReferenceIdeal.Read
import proofs.«404053_j12146167513170_2_alg».proof.Proof.KernelArray
import proofs.«404053_j12146167513170_2_alg».proof.Proof.KernelTail
import proofs.«404053_j12146167513170_2_alg».proof.Proof.KernelBins
import proofs.«404053_j12146167513170_2_alg».proof.Proof.RefRow
import proofs.«404053_j12146167513170_2_alg».proof.Proof.RefBins

noncomputable section

namespace Cert.Bridge

open Idealize.ShloMosaic Idealize.ShloMosaic.ValueIdx Cert.ReferenceIdeal

variable (x0 : (⟨S1024x200x128, .f32⟩ : BufTy).Contents (Elt Ideal)) (x1 : (⟨S1024x128, .f32⟩ : BufTy).Contents (Elt Ideal))
  (x2 : (⟨S1024x200, .i32⟩ : BufTy).Contents (Elt Ideal)) (x3 : (⟨S1024x200, .i1⟩ : BufTy).Contents (Elt Ideal))
  (x4 x5 : (⟨S128x128, .f32⟩ : BufTy).Contents (Elt Ideal)) (x6 : (⟨S1x128, .f32⟩ : BufTy).Contents (Elt Ideal))
  (x7 : (⟨S1, .f32⟩ : BufTy).Contents (Elt Ideal))

/-- The reference's attention stage is the attention array of the arguments. -/
theorem ref_att :
    Cert.ReferenceIdeal.Read.val_main_v22 (F := Ideal) x0 x1 x3 x4 x5 x6 x7
      = Cert.KernelArray.attArg x0 x1 x3 x4 x5 x6 x7 := by
  funext j
  obtain ⟨b, s, rfl⟩ : ∃ (b : Fin 1024) (s : Fin 200), j = ix2 b s := ⟨j 0, j 1, eq_ix2 j⟩
  rw [Cert.RefRow.att_apply]
  rfl

/-- THE RESULTS AGREE: with the item ids in range, the reference's result is the kernel's tail function of the item
    ids and the attention array. -/
theorem result_eq
    (hr : ∀ (b : Fin 1024) (s : Fin 200), 0 ≤ (x2 (ix2 b s)).toInt ∧ (x2 (ix2 b s)).toInt < 100000) :
    Cert.ReferenceIdeal.Read.val_main_v40 (F := Ideal) x0 x1 x2 x3 x4 x5 x6 x7
      = Cert.KernelTail.tail (F := Ideal) x2 (Cert.KernelArray.attArg x0 x1 x3 x4 x5 x6 x7) := by
  funext i
  obtain ⟨b, n, rfl⟩ : ∃ (b : Fin 1024) (n : Fin 100000), i = ix2 b n := ⟨i 0, i 1, eq_ix2 i⟩
  unfold Cert.ReferenceIdeal.Read.val_main_v40
  rw [ref_att, Cert.RefBins.bins_apply x2 _ hr b n, Cert.KernelBins.tail_apply x2 _ hr b n]

end Cert.Bridge

end
-- ==== Proof.ItemRange.lean ====
/-
  The item ids are in range. The precondition is a single bit: the conjunction of six "every entry is finite" tests on
  the float arguments and, last, of the conjunction over all 1024 × 200 positions of
  (0 ≤ item, signed) and (item < 100000, signed) for the 32-bit item ids. When that bit is 1, the last conjunct is 1;
  a conjunction over all positions that is 1 has a 1 at every position; and at a position the two comparisons, each
  against a constant spread to the whole rectangle, say 0 ≤ item and item < 100000 of the word read as a signed integer.
-/
import proofs.«404053_j12146167513170_2_alg».proof.Pre_finite_inputs
import Idealize.ShloMosaic.Lib.ReduceAll
import Idealize.ShloMosaic.Lib.StableHlo.Predicate
import Idealize.ShloMosaic.Lib.ValueIdx
import Idealize.ShloMosaic.PureOps.Ideal

noncomputable section

namespace Cert.ItemRange

open Idealize.ShloMosaic Idealize.ShloMosaic.ValueIdx
open Cert.Pre_finite_inputs

/-- Every item id, read as a signed 32-bit integer, lies in [0, 100000). -/
theorem item_range [Cert.Pre_finite_inputs.Facts]
    (a0 : FVec Ideal S1024x200x128 .f32) (a1 : FVec Ideal S1024x128 .f32) (a2 : IVec S1024x200 32)
    (a3 : IVec S1024x200 1) (a4 a5 : FVec Ideal S128x128 .f32) (a6 : FVec Ideal S1x128 .f32) (a7 : FVec Ideal S1 .f32)
    (h : Cert.Pre_finite_inputs.fn (F := Ideal) a0 a1 a2 a3 a4 a5 a6 a7 = fun _ => 1#1) :
    ∀ (b : Fin 1024) (s : Fin 200), 0 ≤ (a2 (ix2 b s)).toInt ∧ (a2 (ix2 b s)).toInt < 100000 := by
  intro b s
  -- the one bit of the precondition, as the conjunction it was printed as
  have e := congrFun h ix0
  dsimp only [Cert.Pre_finite_inputs.fn, Cert.Pre_finite_inputs.fn_part1, Cert.Pre_finite_inputs.fn_part2] at e
  -- its last conjunct: the conjunction over all positions of the two range tests
  have hall := (IntOp.andi_eq_one.1 e).2
  -- the scalar shape has exactly one index, so every position reduces into it:
  -- a conjunction over all positions that is 1 is 1 at position (b, s)
  haveI : Subsingleton S_.Idx := ⟨fun x y => funext fun d => d.elim0⟩
  have hbs := Host.reduce_andi_all _ _ _ _ ix0 hall (ix2 b s)
  -- there, both comparisons hold
  obtain ⟨hge, hlt⟩ := IntOp.andi_eq_one.1 hbs
  have hge' := IntOp.cmpi_sge.1 hge
  have hlt' := IntOp.cmpi_slt.1 hlt
  -- the constants spread over the rectangle read as themselves everywhere
  simp only [broadcastInDim, constantI] at hge' hlt'
  have h0 : (0#32 : BitVec 32).toInt = 0 := by decide
  have hN : (100000#32 : BitVec 32).toInt = 100000 := by decide
  rw [h0] at hge'
  rw [hN] at hlt'
  exact ⟨hge', hlt'⟩

end Cert.ItemRange

end
-- ==== Proof.lean ====
/-
  Additive attention over a sequence, its weights binned by item id: the kernel against its reference.

  Both programs compute, for every batch row `b`, the softmax over the row's 200 positions of the masked score
  `Σ_h tanh (Σ_k x[b,s,k]·U[h,k] + Σ_k l[b,k]·W[h,k]) · v[h] + β` (a flagged position scores the fill value), and add
  the resulting weights into bin `item[b,s]` of row `b` of a zero `[1024, 100000]` array.

  The kernel does the softmax part in one region over 16 blocks of 64 batch rows (two matrix products into zero
  accumulators, a lane sum against the readout row, a row maximum and a row sum), on weights the host transposed and a
  mask the host converted to floats; the reference does it with three contractions and two reductions.  Over the
  extended reals these are the same finite sums, maxima and quotients of the same entries, in another order
  (Spec: `attRow`; KernelRow and KernelArray for the kernel, RefRow for the reference); no entry needs to be finite.

  The kernel then adds the weights into a FLAT vector at `100000·b + item[b,s]`, the reference into the array at the
  pair `(b, item[b,s])`.  These agree where every item id lies in `[0, 100000)` — the statement's precondition —:
  the flat target then does not wrap, and `100000·b' + i = 100000·b + n` forces `b' = b` and `i = n`
  (KernelBins, RefBins, joined in Bridge; ItemRange reads the range off the precondition).

  The three frames are the generated ones (the reference's is its generated run with the result dropped), and the
  idealization changed nothing that needs a statement.
-/
import proofs.«404053_j12146167513170_2_alg».proof.Defs
import proofs.«404053_j12146167513170_2_alg».proof.Proof.Gen.Kernel
import proofs.«404053_j12146167513170_2_alg».proof.Proof.Gen.Kernel.Skeleton
import proofs.«404053_j12146167513170_2_alg».proof.Proof.Gen.Kernel.Launch
import proofs.«404053_j12146167513170_2_alg».proof.Proof.Gen.Kernel.Points
import proofs.«404053_j12146167513170_2_alg».proof.Proof.Gen.Kernel.Frame
import proofs.«404053_j12146167513170_2_alg».proof.Proof.Gen.KernelIdeal
import proofs.«404053_j12146167513170_2_alg».proof.Proof.Gen.KernelIdeal.Skeleton
import proofs.«404053_j12146167513170_2_alg».proof.Proof.Gen.KernelIdeal.Launch
import proofs.«404053_j12146167513170_2_alg».proof.Proof.Gen.KernelIdeal.Points
import proofs.«404053_j12146167513170_2_alg».proof.Proof.Gen.KernelIdeal.Frame
import proofs.«404053_j12146167513170_2_alg».proof.Proof.Gen.ReferenceIdeal
import proofs.«404053_j12146167513170_2_alg».proof.Proof.Gen.ReferenceIdeal.Run
import proofs.«404053_j12146167513170_2_alg».proof.Proof.Gen.ReferenceIdeal.Read
import proofs.«404053_j12146167513170_2_alg».proof.Proof.Gen.Pre_finite_inputs
import proofs.«404053_j12146167513170_2_alg».proof.Proof.KernelRow
import proofs.«404053_j12146167513170_2_alg».proof.Proof.KernelRun
import proofs.«404053_j12146167513170_2_alg».proof.Proof.Bridge
import proofs.«404053_j12146167513170_2_alg».proof.Proof.ItemRange
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization's ledger is empty. -/
theorem preserves : Cert.preserves_Kernel_KernelIdeal := trivial

/-- From memories that agree on the arguments, with the item ids in range, both programs end with the same array:
    the kernel's run names its result as the tail function of the item ids and the attention array of the arguments,
    and the reference's result is that same function. -/
theorem algebraic : Cert.algebraic_KernelIdeal_ReferenceIdeal := by
  intro m ρ m' ρ' hpre hagree
  refine ⟨Cert.KernelRun.result m, Cert.KernelRun.run m ρ Cert.KernelRow.pay_apply, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7⟩ := hagree c
  rw [Cert.ReferenceIdeal.Read.val_main_v40_eq, h0, h1, h2, h3, h4, h5, h6, h7]
  exact Cert.Bridge.result_eq _ _ _ _ _ _ _ _ (Cert.ItemRange.item_range _ _ _ _ _ _ _ _ (hpre c))

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
